-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S256x4096 : Shape := ⟨2, ![256, 4096]⟩
abbrev S256x128 : Shape := ⟨2, ![256, 128]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .f32⟩
  | .hbm, ⟨3, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  slices_S256x4096_o0_0_S256x128 : S256x4096.Slices ![0, 0] S256x128
  slices_S256x4096_o0_128_S256x128 : S256x4096.Slices ![0, 128] S256x128
  slices_S256x4096_o0_256_S256x128 : S256x4096.Slices ![0, 256] S256x128
  slices_S256x4096_o0_384_S256x128 : S256x4096.Slices ![0, 384] S256x128
  slices_S256x4096_o0_512_S256x128 : S256x4096.Slices ![0, 512] S256x128
  slices_S256x4096_o0_640_S256x128 : S256x4096.Slices ![0, 640] S256x128
  slices_S256x4096_o0_768_S256x128 : S256x4096.Slices ![0, 768] S256x128
  slices_S256x4096_o0_896_S256x128 : S256x4096.Slices ![0, 896] S256x128
  slices_S256x4096_o0_1024_S256x128 : S256x4096.Slices ![0, 1024] S256x128
  slices_S256x4096_o0_1152_S256x128 : S256x4096.Slices ![0, 1152] S256x128
  slices_S256x4096_o0_1280_S256x128 : S256x4096.Slices ![0, 1280] S256x128
  slices_S256x4096_o0_1408_S256x128 : S256x4096.Slices ![0, 1408] S256x128
  slices_S256x4096_o0_1536_S256x128 : S256x4096.Slices ![0, 1536] S256x128
  slices_S256x4096_o0_1664_S256x128 : S256x4096.Slices ![0, 1664] S256x128
  slices_S256x4096_o0_1792_S256x128 : S256x4096.Slices ![0, 1792] S256x128
  slices_S256x4096_o0_1920_S256x128 : S256x4096.Slices ![0, 1920] S256x128
  slices_S256x4096_o0_2048_S256x128 : S256x4096.Slices ![0, 2048] S256x128
  slices_S256x4096_o0_2176_S256x128 : S256x4096.Slices ![0, 2176] S256x128
  slices_S256x4096_o0_2304_S256x128 : S256x4096.Slices ![0, 2304] S256x128
  slices_S256x4096_o0_2432_S256x128 : S256x4096.Slices ![0, 2432] S256x128
  slices_S256x4096_o0_2560_S256x128 : S256x4096.Slices ![0, 2560] S256x128
  slices_S256x4096_o0_2688_S256x128 : S256x4096.Slices ![0, 2688] S256x128
  slices_S256x4096_o0_2816_S256x128 : S256x4096.Slices ![0, 2816] S256x128
  slices_S256x4096_o0_2944_S256x128 : S256x4096.Slices ![0, 2944] S256x128
  slices_S256x4096_o0_3072_S256x128 : S256x4096.Slices ![0, 3072] S256x128
  slices_S256x4096_o0_3200_S256x128 : S256x4096.Slices ![0, 3200] S256x128
  slices_S256x4096_o0_3328_S256x128 : S256x4096.Slices ![0, 3328] S256x128
  slices_S256x4096_o0_3456_S256x128 : S256x4096.Slices ![0, 3456] S256x128
  slices_S256x4096_o0_3584_S256x128 : S256x4096.Slices ![0, 3584] S256x128
  slices_S256x4096_o0_3712_S256x128 : S256x4096.Slices ![0, 3712] S256x128
  slices_S256x4096_o0_3840_S256x128 : S256x4096.Slices ![0, 3840] S256x128
  slices_S256x4096_o0_3968_S256x128 : S256x4096.Slices ![0, 3968] S256x128
  concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 : Shape.Concatenates [S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128] S256x4096 1
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16384x32x128 : Shape := ⟨3, ![16384, 32, 128]⟩
abbrev S16384x128x32 : Shape := ⟨3, ![16384, 128, 32]⟩
abbrev S2097152x32 : Shape := ⟨2, ![2097152, 32]⟩
abbrev S2097152x32x1 : Shape := ⟨3, ![2097152, 32, 1]⟩
abbrev S2097152x16x2x1 : Shape := ⟨4, ![2097152, 16, 2, 1]⟩
abbrev S2097152x16x1x1 : Shape := ⟨4, ![2097152, 16, 1, 1]⟩
abbrev S2097152x16x1 : Shape := ⟨3, ![2097152, 16, 1]⟩
abbrev S2097152x16x2 : Shape := ⟨3, ![2097152, 16, 2]⟩
abbrev S2097152x8x2x2 : Shape := ⟨4, ![2097152, 8, 2, 2]⟩
abbrev S2097152x8x1x2 : Shape := ⟨4, ![2097152, 8, 1, 2]⟩
abbrev S2097152x8x2 : Shape := ⟨3, ![2097152, 8, 2]⟩
abbrev S2097152x8x4 : Shape := ⟨3, ![2097152, 8, 4]⟩
abbrev S2097152x4x2x4 : Shape := ⟨4, ![2097152, 4, 2, 4]⟩
abbrev S2097152x4x1x4 : Shape := ⟨4, ![2097152, 4, 1, 4]⟩
abbrev S2097152x4x4 : Shape := ⟨3, ![2097152, 4, 4]⟩
abbrev S2097152x4x8 : Shape := ⟨3, ![2097152, 4, 8]⟩
abbrev S2097152x2x2x8 : Shape := ⟨4, ![2097152, 2, 2, 8]⟩
abbrev S2097152x2x1x8 : Shape := ⟨4, ![2097152, 2, 1, 8]⟩
abbrev S2097152x2x8 : Shape := ⟨3, ![2097152, 2, 8]⟩
abbrev S2097152x2x16 : Shape := ⟨3, ![2097152, 2, 16]⟩
abbrev S2097152x1x2x16 : Shape := ⟨4, ![2097152, 1, 2, 16]⟩
abbrev S2097152x1x1x16 : Shape := ⟨4, ![2097152, 1, 1, 16]⟩
abbrev S2097152x1x16 : Shape := ⟨3, ![2097152, 1, 16]⟩
abbrev S2097152x1x32 : Shape := ⟨3, ![2097152, 1, 32]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16384x32x128, .f32⟩
  | .hbm, ⟨2, _⟩ => ⟨S16384x128x32, .f32⟩
  | .hbm, ⟨3, _⟩ => ⟨S2097152x32, .f32⟩
  | .hbm, ⟨4, _⟩ => ⟨S2097152x32x1, .f32⟩
  | .hbm, ⟨5, _⟩ => ⟨S2097152x16x2x1, .f32⟩
  | .hbm, ⟨6, _⟩ => ⟨S2097152x16x1x1, .f32⟩
  | .hbm, ⟨7, _⟩ => ⟨S2097152x16x1, .f32⟩
  | .hbm, ⟨8, _⟩ => ⟨S2097152x16x1x1, .f32⟩
  | .hbm, ⟨9, _⟩ => ⟨S2097152x16x1, .f32⟩
  | .hbm, ⟨10, _⟩ => ⟨S2097152x16x1, .f32⟩
  | .hbm, ⟨11, _⟩ => ⟨S2097152x16x1, .f32⟩
  | .hbm, ⟨12, _⟩ => ⟨S2097152x16x1x1, .f32⟩
  | .hbm, ⟨13, _⟩ => ⟨S2097152x16x1x1, .f32⟩
  | .hbm, ⟨14, _⟩ => ⟨S2097152x16x2x1, .f32⟩
  | .hbm, ⟨15, _⟩ => ⟨S2097152x16x2, .f32⟩
  | .hbm, ⟨16, _⟩ => ⟨S2097152x8x2x2, .f32⟩
  | .hbm, ⟨17, _⟩ => ⟨S2097152x8x1x2, .f32⟩
  | .hbm, ⟨18, _⟩ => ⟨S2097152x8x2, .f32⟩
  | .hbm, ⟨19, _⟩ => ⟨S2097152x8x1x2, .f32⟩
  | .hbm, ⟨20, _⟩ => ⟨S2097152x8x2, .f32⟩
  | .hbm, ⟨21, _⟩ => ⟨S2097152x8x2, .f32⟩
  | .hbm, ⟨22, _⟩ => ⟨S2097152x8x2, .f32⟩
  | .hbm, ⟨23, _⟩ => ⟨S2097152x8x1x2, .f32⟩
  | .hbm, ⟨24, _⟩ => ⟨S2097152x8x1x2, .f32⟩
  | .hbm, ⟨25, _⟩ => ⟨S2097152x8x2x2, .f32⟩
  | .hbm, ⟨26, _⟩ => ⟨S2097152x8x4, .f32⟩
  | .hbm, ⟨27, _⟩ => ⟨S2097152x4x2x4, .f32⟩
  | .hbm, ⟨28, _⟩ => ⟨S2097152x4x1x4, .f32⟩
  | .hbm, ⟨29, _⟩ => ⟨S2097152x4x4, .f32⟩
  | .hbm, ⟨30, _⟩ => ⟨S2097152x4x1x4, .f32⟩
  | .hbm, ⟨31, _⟩ => ⟨S2097152x4x4, .f32⟩
  | .hbm, ⟨32, _⟩ => ⟨S2097152x4x4, .f32⟩
  | .hbm, ⟨33, _⟩ => ⟨S2097152x4x4, .f32⟩
  | .hbm, ⟨34, _⟩ => ⟨S2097152x4x1x4, .f32⟩
  | .hbm, ⟨35, _⟩ => ⟨S2097152x4x1x4, .f32⟩
  | .hbm, ⟨36, _⟩ => ⟨S2097152x4x2x4, .f32⟩
  | .hbm, ⟨37, _⟩ => ⟨S2097152x4x8, .f32⟩
  | .hbm, ⟨38, _⟩ => ⟨S2097152x2x2x8, .f32⟩
  | .hbm, ⟨39, _⟩ => ⟨S2097152x2x1x8, .f32⟩
  | .hbm, ⟨40, _⟩ => ⟨S2097152x2x8, .f32⟩
  | .hbm, ⟨41, _⟩ => ⟨S2097152x2x1x8, .f32⟩
  | .hbm, ⟨42, _⟩ => ⟨S2097152x2x8, .f32⟩
  | .hbm, ⟨43, _⟩ => ⟨S2097152x2x8, .f32⟩
  | .hbm, ⟨44, _⟩ => ⟨S2097152x2x8, .f32⟩
  | .hbm, ⟨45, _⟩ => ⟨S2097152x2x1x8, .f32⟩
  | .hbm, ⟨46, _⟩ => ⟨S2097152x2x1x8, .f32⟩
  | .hbm, ⟨47, _⟩ => ⟨S2097152x2x2x8, .f32⟩
  | .hbm, ⟨48, _⟩ => ⟨S2097152x2x16, .f32⟩
  | .hbm, ⟨49, _⟩ => ⟨S2097152x1x2x16, .f32⟩
  | .hbm, ⟨50, _⟩ => ⟨S2097152x1x1x16, .f32⟩
  | .hbm, ⟨51, _⟩ => ⟨S2097152x1x16, .f32⟩
  | .hbm, ⟨52, _⟩ => ⟨S2097152x1x1x16, .f32⟩
  | .hbm, ⟨53, _⟩ => ⟨S2097152x1x16, .f32⟩
  | .hbm, ⟨54, _⟩ => ⟨S2097152x1x16, .f32⟩
  | .hbm, ⟨55, _⟩ => ⟨S2097152x1x16, .f32⟩
  | .hbm, ⟨56, _⟩ => ⟨S2097152x1x1x16, .f32⟩
  | .hbm, ⟨57, _⟩ => ⟨S2097152x1x1x16, .f32⟩
  | .hbm, ⟨58, _⟩ => ⟨S2097152x1x2x16, .f32⟩
  | .hbm, ⟨59, _⟩ => ⟨S2097152x1x32, .f32⟩
  | .hbm, ⟨60, _⟩ => ⟨S2097152x32, .f32⟩
  | .hbm, ⟨61, _⟩ => ⟨S_, .f32⟩
  | .hbm, ⟨62, _⟩ => ⟨S2097152x32, .f32⟩
  | .hbm, ⟨63, _⟩ => ⟨S2097152x32, .f32⟩
  | .hbm, ⟨64, _⟩ => ⟨S16384x128x32, .f32⟩
  | .hbm, ⟨65, _⟩ => ⟨S16384x32x128, .f32⟩
  | .hbm, ⟨66, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_cst : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩

abbrev nD : Nat := 1
abbrev τ : Topo := Topo.v7x

variable {F : FTy → Type} [FloatOps F]

class Facts₀ : Prop where
  shapeCasts_S4x4096x4096_S16384x32x128 : S4x4096x4096.ShapeCasts S16384x32x128
  transposes_S16384x32x128_S16384x128x32_0_2_1 : S16384x32x128.Transposes [0, 2, 1] S16384x128x32
  shapeCasts_S16384x128x32_S2097152x32 : S16384x128x32.ShapeCasts S2097152x32
  bcast_S2097152x32_S2097152x32x1_0_1 : S2097152x32.BroadcastsInDim S2097152x32x1 (![0, 1] : Fin 2 → Fin S2097152x32x1.rank)
  shapeCasts_S2097152x32x1_S2097152x16x2x1 : S2097152x32x1.ShapeCasts S2097152x16x2x1
  slices_S2097152x16x2x1_S2097152x16x1x1_0_0_0_0 : S2097152x16x2x1.Slices ![0, 0, 0, 0] S2097152x16x1x1
  shapeCasts_S2097152x16x1x1_S2097152x16x1 : S2097152x16x1x1.ShapeCasts S2097152x16x1
  slices_S2097152x16x2x1_S2097152x16x1x1_0_0_1_0 : S2097152x16x2x1.Slices ![0, 0, 1, 0] S2097152x16x1x1
  bcast_S2097152x16x1_S2097152x16x1x1_0_1_3 : S2097152x16x1.BroadcastsInDim S2097152x16x1x1 (![0, 1, 3] : Fin 3 → Fin S2097152x16x1x1.rank)
  concatenates_S2097152x16x1x1_S2097152x16x1x1_S2097152x16x2x1_d2 : Shape.Concatenates [S2097152x16x1x1, S2097152x16x1x1] S2097152x16x2x1 2
  shapeCasts_S2097152x16x2x1_S2097152x16x2 : S2097152x16x2x1.ShapeCasts S2097152x16x2
  shapeCasts_S2097152x16x2_S2097152x8x2x2 : S2097152x16x2.ShapeCasts S2097152x8x2x2
  slices_S2097152x8x2x2_S2097152x8x1x2_0_0_0_0 : S2097152x8x2x2.Slices ![0, 0, 0, 0] S2097152x8x1x2
  shapeCasts_S2097152x8x1x2_S2097152x8x2 : S2097152x8x1x2.ShapeCasts S2097152x8x2
  slices_S2097152x8x2x2_S2097152x8x1x2_0_0_1_0 : S2097152x8x2x2.Slices ![0, 0, 1, 0] S2097152x8x1x2
  bcast_S2097152x8x2_S2097152x8x1x2_0_1_3 : S2097152x8x2.BroadcastsInDim S2097152x8x1x2 (![0, 1, 3] : Fin 3 → Fin S2097152x8x1x2.rank)
  concatenates_S2097152x8x1x2_S2097152x8x1x2_S2097152x8x2x2_d2 : Shape.Concatenates [S2097152x8x1x2, S2097152x8x1x2] S2097152x8x2x2 2
  shapeCasts_S2097152x8x2x2_S2097152x8x4 : S2097152x8x2x2.ShapeCasts S2097152x8x4
  shapeCasts_S2097152x8x4_S2097152x4x2x4 : S2097152x8x4.ShapeCasts S2097152x4x2x4
  slices_S2097152x4x2x4_S2097152x4x1x4_0_0_0_0 : S2097152x4x2x4.Slices ![0, 0, 0, 0] S2097152x4x1x4
  shapeCasts_S2097152x4x1x4_S2097152x4x4 : S2097152x4x1x4.ShapeCasts S2097152x4x4
  slices_S2097152x4x2x4_S2097152x4x1x4_0_0_1_0 : S2097152x4x2x4.Slices ![0, 0, 1, 0] S2097152x4x1x4
  bcast_S2097152x4x4_S2097152x4x1x4_0_1_3 : S2097152x4x4.BroadcastsInDim S2097152x4x1x4 (![0, 1, 3] : Fin 3 → Fin S2097152x4x1x4.rank)
  concatenates_S2097152x4x1x4_S2097152x4x1x4_S2097152x4x2x4_d2 : Shape.Concatenates [S2097152x4x1x4, S2097152x4x1x4] S2097152x4x2x4 2
  shapeCasts_S2097152x4x2x4_S2097152x4x8 : S2097152x4x2x4.ShapeCasts S2097152x4x8
  shapeCasts_S2097152x4x8_S2097152x2x2x8 : S2097152x4x8.ShapeCasts S2097152x2x2x8
  slices_S2097152x2x2x8_S2097152x2x1x8_0_0_0_0 : S2097152x2x2x8.Slices ![0, 0, 0, 0] S2097152x2x1x8
  shapeCasts_S2097152x2x1x8_S2097152x2x8 : S2097152x2x1x8.ShapeCasts S2097152x2x8
  slices_S2097152x2x2x8_S2097152x2x1x8_0_0_1_0 : S2097152x2x2x8.Slices ![0, 0, 1, 0] S2097152x2x1x8
  bcast_S2097152x2x8_S2097152x2x1x8_0_1_3 : S2097152x2x8.BroadcastsInDim S2097152x2x1x8 (![0, 1, 3] : Fin 3 → Fin S2097152x2x1x8.rank)
  concatenates_S2097152x2x1x8_S2097152x2x1x8_S2097152x2x2x8_d2 : Shape.Concatenates [S2097152x2x1x8, S2097152x2x1x8] S2097152x2x2x8 2
  shapeCasts_S2097152x2x2x8_S2097152x2x16 : S2097152x2x2x8.ShapeCasts S2097152x2x16
  shapeCasts_S2097152x2x16_S2097152x1x2x16 : S2097152x2x16.ShapeCasts S2097152x1x2x16
  slices_S2097152x1x2x16_S2097152x1x1x16_0_0_0_0 : S2097152x1x2x16.Slices ![0, 0, 0, 0] S2097152x1x1x16
  shapeCasts_S2097152x1x1x16_S2097152x1x16 : S2097152x1x1x16.ShapeCasts S2097152x1x16
  slices_S2097152x1x2x16_S2097152x1x1x16_0_0_1_0 : S2097152x1x2x16.Slices ![0, 0, 1, 0] S2097152x1x1x16
  bcast_S2097152x1x16_S2097152x1x1x16_0_1_3 : S2097152x1x16.BroadcastsInDim S2097152x1x1x16 (![0, 1, 3] : Fin 3 → Fin S2097152x1x1x16.rank)
  concatenates_S2097152x1x1x16_S2097152x1x1x16_S2097152x1x2x16_d2 : Shape.Concatenates [S2097152x1x1x16, S2097152x1x1x16] S2097152x1x2x16 2
  shapeCasts_S2097152x1x2x16_S2097152x1x32 : S2097152x1x2x16.ShapeCasts S2097152x1x32
  shapeCasts_S2097152x1x32_S2097152x32 : S2097152x1x32.ShapeCasts S2097152x32
  bcast_S_S2097152x32 : S_.BroadcastsInDim S2097152x32 (![] : Fin 0 → Fin S2097152x32.rank)
  shapeCasts_S2097152x32_S16384x128x32 : S2097152x32.ShapeCasts S16384x128x32
  transposes_S16384x128x32_S16384x32x128_0_2_1 : S16384x128x32.Transposes [0, 2, 1] S16384x32x128
  shapeCasts_S16384x32x128_S4x4096x4096 : S16384x32x128.ShapeCasts S4x4096x4096

variable [Facts₀]

class Facts : Prop extends Facts₀ where

variable [Facts]
-- ==== Proof.Flat.lean ====
/-
  Arrays as functions of the row-major position, and the butterfly stage on such functions.

  Every array of the two programs is described by ONE function `f : ℕ → EReal`: the entry at a
  multi-index is `f` of that index's row-major position (`Flat`). A reshape keeps the function; the
  pointwise operations act on it pointwise; a slice, a concatenation, a transposition re-index it.

  A Walsh–Hadamard butterfly stage at stride `c` pairs position `n` with `n + c` inside consecutive
  groups of `2 c` positions: the first of a pair receives the sum, the second the difference
  (first minus second). That is `stageF c`. Both programs run five such stages; they differ only in
  WHERE the 32 entries of one transform sit in memory (stride 1 inside rows of 32 for one, stride 128
  inside rows of 4096 for the other), and `stageF_transport` moves a stage along such a re-indexing.
-/
import Idealize.ShloMosaic.PureOps.Ideal
import Idealize.ShloMosaic.Lib.ValueIdx
import Idealize.ShloMosaic.Lib.Pipeline.Value

noncomputable section

namespace Cert.Butterfly

open Idealize.ShloMosaic Idealize.ShloMosaic.ValueIdx

/-! ## The stage -/

/-- One butterfly stage at stride `c`: in each group of `2 c` consecutive positions, position `n` of the
    first half receives `f n + f (n + c)` and its partner `n + c` receives `f n - f (n + c)`. -/
def stageF (c : ℕ) (f : ℕ → EReal) (n : ℕ) : EReal :=
  if (n / c) % 2 = 0 then f n + f (n + c) else f (n - c) - f n

/-- A stage commutes with a re-indexing `τ` of the positions below `L` that carries stride `c` to stride `C`:
    it keeps the half a position lies in (`hpar`), sends a first-half position's partner to the partner
    (`hup`) and a second-half position's partner to the partner (`hdn`). -/
theorem stageF_transport (c C L : ℕ) (τ : ℕ → ℕ) (f g : ℕ → EReal)
    (hpar : ∀ n < L, (τ n / C) % 2 = (n / c) % 2)
    (hup : ∀ n < L, (n / c) % 2 = 0 → n + c < L ∧ τ (n + c) = τ n + C)
    (hdn : ∀ n < L, ¬ (n / c) % 2 = 0 → τ (n - c) = τ n - C)
    (h : ∀ n < L, f n = g (τ n)) : ∀ n < L, stageF c f n = stageF C g (τ n) := by
  intro n hn
  unfold stageF
  rw [hpar n hn]
  by_cases hc : (n / c) % 2 = 0
  · rw [if_pos hc, if_pos hc, h n hn, h (n + c) (hup n hn hc).1, (hup n hn hc).2]
  · rw [if_neg hc, if_neg hc, h n hn, h (n - c) (by omega), hdn n hn hc]

/-! ## Arrays by their row-major function -/

/-- The array `x` holds `f n` at the index whose row-major position is `n`. -/
def Flat {s : Shape} (x : s.Idx → EReal) (f : ℕ → EReal) : Prop :=
  ∀ i : s.Idx, x i = f (s.rowMajor i).val

/-- An array's own row-major function (zero past its end). -/
def flatOf {s : Shape} (x : s.Idx → EReal) (n : ℕ) : EReal :=
  if h : n < s.numel then x (s.rowMajor.symm ⟨n, h⟩) else 0

theorem flat_flatOf {s : Shape} (x : s.Idx → EReal) : Flat x (flatOf x) := fun i => by
  unfold flatOf
  rw [dif_pos (s.rowMajor i).isLt]
  exact congrArg x (by simp)

/-- Only the positions inside the array matter. -/
theorem Flat.congr {s : Shape} {x : s.Idx → EReal} {f g : ℕ → EReal} (hx : Flat x f)
    (h : ∀ n < s.numel, f n = g n) : Flat x g :=
  fun i => (hx i).trans (h _ (s.rowMajor i).isLt)

/-- Two arrays of one shape with the same row-major function are equal. -/
theorem Flat.eq {s : Shape} {x y : s.Idx → EReal} {f : ℕ → EReal} (hx : Flat x f) (hy : Flat y f) : x = y :=
  funext fun i => (hx i).trans (hy i).symm

/-- A reshape keeps the row-major function. -/
theorem Flat.reshape {s t : Shape} {x : s.Idx → EReal} {f : ℕ → EReal} (hx : Flat x f) (h : s.ShapeCasts t) :
    Flat (shapeCast t x h) f := fun j => by
  unfold shapeCast
  rw [hx, Shape.rowMajor_reshapeEquiv]

theorem Flat.add {s : Shape} {x y : FVec Ideal s .f32} {f g : ℕ → EReal} (hx : Flat x f) (hy : Flat y g) :
    Flat (addf x y) (fun n => f n + g n) := fun i => by
  rw [addf_apply, hx i, hy i]

theorem Flat.sub {s : Shape} {x y : FVec Ideal s .f32} {f g : ℕ → EReal} (hx : Flat x f) (hy : Flat y g) :
    Flat (subf x y) (fun n => f n - g n) := fun i => by
  rw [subf_apply, hx i, hy i]

theorem Flat.mul {s : Shape} {x y : FVec Ideal s .f32} {f g : ℕ → EReal} (hx : Flat x f) (hy : Flat y g) :
    Flat (mulf x y) (fun n => f n * g n) := fun i => by
  rw [mulf_apply, hx i, hy i]

/-- An array that holds one value everywhere. -/
theorem Flat.const {s : Shape} {x : s.Idx → EReal} (a : EReal) (hx : ∀ i, x i = a) : Flat x (fun _ => a) :=
  fun i => hx i

end Cert.Butterfly

end
-- ==== Proof.Spec.lean ====
/-
  The result both programs compute, as a function of the argument's row-major function.

  The argument is `x : f32[4, 4096, 4096]`. Read as 16384 rows of 4096, a row holds 32 heads of 128
  lanes: position `T * 4096 + h * 128 + d`. For each row `T` and lane `d` the 32 entries
  `h = 0 … 31` are transformed by five butterfly stages and scaled by the f32 nearest `1 / √32`.

  * One program works in this layout: the 32 entries of a transform sit 128 apart, the stages have
    strides 128, 256, 512, 1024, 2048 (`whtLane`).
  * The other first transposes heads and lanes: position `T * 4096 + d * 32 + h`, the 32 entries
    consecutive, strides 1, 2, 4, 8, 16 (`whtRow`), and transposes back.

  `lanePos` / `rowPos` are the two transpositions on positions, and `bridge` says the two transforms
  are one: each stage is carried across by `stageF_transport`.
-/
import proofs.«125641_j46153718563373_1_alg».proof.Proof.Flat

noncomputable section

namespace Cert.Butterfly

open Idealize.ShloMosaic Idealize.ShloMosaic.ValueIdx

/-- The f32 nearest `1 / √32`, as the extended real it denotes. -/
def scale : EReal := Ideal.ofBits .f32 0x3E3504F3#32

/-- Five stages on 32 consecutive positions: strides 1, 2, 4, 8, 16. -/
def whtRow (f : ℕ → EReal) : ℕ → EReal :=
  stageF 16 (stageF 8 (stageF 4 (stageF 2 (stageF 1 f))))

/-- Five stages on 32 positions 128 apart: strides 128, 256, 512, 1024, 2048. -/
def whtLane (f : ℕ → EReal) : ℕ → EReal :=
  stageF 2048 (stageF 1024 (stageF 512 (stageF 256 (stageF 128 f))))

/-- The result's row-major function from the argument's. -/
def specF (X : ℕ → EReal) (o : ℕ) : EReal := whtLane X o * scale

abbrev SArg : Shape := ⟨3, ![4, 4096, 4096]⟩

/-- The result array as a function of the argument array. -/
def G (x : FVec Ideal SArg .f32) : FVec Ideal SArg .f32 :=
  fun i => specF (flatOf x) (SArg.rowMajor i).val

theorem flat_G (x : FVec Ideal SArg .f32) : Flat (G x) (specF (flatOf x)) := fun _ => rfl

/-- Heads and lanes transposed: where position `T * 4096 + d * 32 + h` of the transposed layout
    sits in the argument's layout, `T * 4096 + h * 128 + d`. -/
def lanePos (n : ℕ) : ℕ := n / 4096 * 4096 + n % 32 * 128 + n / 32 % 128

/-- The inverse: position `T * 4096 + h * 128 + d` goes to `T * 4096 + d * 32 + h`. -/
def rowPos (o : ℕ) : ℕ := o / 4096 * 4096 + o % 128 * 32 + o / 128 % 32

/-- The 32 entries of one transform in the argument's layout: row `T`, lane `d`, head `h`. -/
def laneAt (T d h : ℕ) : ℕ := 4096 * T + 128 * h + d

/-- The same entries in the transposed layout. -/
def rowAt (T d h : ℕ) : ℕ := 4096 * T + 32 * d + h

theorem lanePos_rowAt (T d h : ℕ) (hd : d < 128) (hh : h < 32) : lanePos (rowAt T d h) = laneAt T d h := by
  unfold lanePos rowAt laneAt; omega

/-- Across lane chunks, the transform of row `T` at lane `d` is the 32-point transform of its 32 entries. -/
theorem whtLane_at (X : ℕ → EReal) (T d : ℕ) (hd : d < 128) :
    ∀ h < 32, whtRow (fun k => X (laneAt T d k)) h = whtLane X (laneAt T d h) := by
  have h0 : ∀ h < 32, (fun k => X (laneAt T d k)) h = X (laneAt T d h) := fun _ _ => rfl
  have h1 := stageF_transport 1 128 32 (laneAt T d) _ _
    (fun n hn => by unfold laneAt; omega) (fun n hn hc => by unfold laneAt; omega) (fun n hn hc => by unfold laneAt; omega) h0
  have h2 := stageF_transport 2 256 32 (laneAt T d) _ _
    (fun n hn => by unfold laneAt; omega) (fun n hn hc => by unfold laneAt; omega) (fun n hn hc => by unfold laneAt; omega) h1
  have h3 := stageF_transport 4 512 32 (laneAt T d) _ _
    (fun n hn => by unfold laneAt; omega) (fun n hn hc => by unfold laneAt; omega) (fun n hn hc => by unfold laneAt; omega) h2
  have h4 := stageF_transport 8 1024 32 (laneAt T d) _ _
    (fun n hn => by unfold laneAt; omega) (fun n hn hc => by unfold laneAt; omega) (fun n hn hc => by unfold laneAt; omega) h3
  exact stageF_transport 16 2048 32 (laneAt T d) _ _
    (fun n hn => by unfold laneAt; omega) (fun n hn hc => by unfold laneAt; omega) (fun n hn hc => by unfold laneAt; omega) h4

/-- In the transposed layout, the transform of the 32 consecutive positions of row `T`, lane `d`, is the
    32-point transform of the same 32 entries. -/
theorem whtRow_at (X : ℕ → EReal) (T d : ℕ) (hd : d < 128) :
    ∀ h < 32, whtRow (fun k => X (laneAt T d k)) h = whtRow (fun k => X (lanePos k)) (rowAt T d h) := by
  have h0 : ∀ h < 32, (fun k => X (laneAt T d k)) h = (fun k => X (lanePos k)) (rowAt T d h) :=
    fun h hh => congrArg X (lanePos_rowAt T d h hd hh).symm
  have h1 := stageF_transport 1 1 32 (rowAt T d) (fun k => X (laneAt T d k)) (fun k => X (lanePos k))
    (fun n hn => by unfold rowAt; omega) (fun n hn hc => by unfold rowAt; omega) (fun n hn hc => by unfold rowAt; omega) h0
  have h2 := stageF_transport 2 2 32 (rowAt T d) _ _
    (fun n hn => by unfold rowAt; omega) (fun n hn hc => by unfold rowAt; omega) (fun n hn hc => by unfold rowAt; omega) h1
  have h3 := stageF_transport 4 4 32 (rowAt T d) _ _
    (fun n hn => by unfold rowAt; omega) (fun n hn hc => by unfold rowAt; omega) (fun n hn hc => by unfold rowAt; omega) h2
  have h4 := stageF_transport 8 8 32 (rowAt T d) _ _
    (fun n hn => by unfold rowAt; omega) (fun n hn hc => by unfold rowAt; omega) (fun n hn hc => by unfold rowAt; omega) h3
  exact stageF_transport 16 16 32 (rowAt T d) _ _
    (fun n hn => by unfold rowAt; omega) (fun n hn hc => by unfold rowAt; omega) (fun n hn hc => by unfold rowAt; omega) h4

/-- The transposed program's result function is the specification, at every position. -/
theorem refF_eq (X : ℕ → EReal) (o : ℕ) :
    whtRow (fun k => X (lanePos k)) (rowPos o) * scale = specF X o := by
  obtain ⟨T, d, h, hd, hh, rfl⟩ : ∃ T d h, d < 128 ∧ h < 32 ∧ o = laneAt T d h :=
    ⟨o / 4096, o % 128, o / 128 % 32, by omega, by omega, by unfold laneAt; omega⟩
  have e : rowPos (laneAt T d h) = rowAt T d h := by unfold rowPos laneAt rowAt; omega
  unfold specF
  rw [e, ← whtRow_at X T d hd h hh, whtLane_at X T d hd h hh]

end Cert.Butterfly

end
-- ==== Proof.KerPayload.lean ====
/-
  What the kernel body computes on one block of 256 rows.

  The body cuts the block's 4096-lane rows into 32 chunks of 128 lanes, combines the chunks by 31 sums
  and differences per output chunk (five butterfly stages across the chunks), multiplies every chunk
  by the scale and lays the 32 results side by side again. At row `r`, chunk `h`, lane `d` the result
  is therefore the 32-point transform, at `h`, of the 32 entries `(r, k, d)`, `k = 0 … 31`, times the
  scale: in row-major positions of the block, `whtLane` of the block's function times `scale`.
  For each of the 32 chunks both sides unfold to the same expression in the 32 entries.
-/
import proofs.«125641_j46153718563373_1_alg».proof.Proof.Spec
import proofs.«125641_j46153718563373_1_alg».proof.Proof.Gen.KernelIdeal.Frame

noncomputable section

namespace Cert.Butterfly

open Idealize.ShloMosaic Idealize.ShloMosaic.ValueIdx Cert.KernelIdeal Cert.KernelIdeal.Gen

/-- A chunk of 128 lanes cut at lane offset `o` out of a block of 4096-lane rows, read at row `r` and lane `d`:
    the block's row-major function at `4096 r + o + d`. -/
theorem slice_read {v : S256x4096.Idx → EReal} {fb : ℕ → EReal} (hv : Flat (s := S256x4096) v fb) (o : ℕ)
    (hs : S256x4096.Slices ![0, o] S256x128) (r : Fin 256) (d : Fin 128) :
    extractStridedSlice S256x128 ![0, o] v hs (ix2 r d) = fb (4096 * r.val + o + d.val) := by
  have ho : o + 128 ≤ 4096 := hs.2 1
  refine (extractStridedSlice_apply ![0, o] v hs (ix2 r d) (ix2 r ⟨o + d.val, by omega⟩) ?_).trans ?_
  · intro a; fin_cases a
    · show r.val = 0 + r.val; omega
    · rfl
  · rw [hv, Shape.rowMajor_val_two]
    show fb (r.val * 4096 + (o + d.val)) = _
    congr 1; omega

/-- Reading a concatenation, along the lanes, of 32 chunks of 128 lanes (`hsh`): chunk `k` (`hxk`) at row `r` and
    lane `d` is what the whole holds at row `r`, lane `128 k + d`. -/
theorem cat_read {α : Type} (xs : List ((s : Shape) × (s.Idx → α)))
    (hc : Shape.Concatenates (xs.map (·.1)) S256x4096 1) (hsh : xs.map (·.1) = List.replicate 32 S256x128)
    (k : ℕ) (hk : k < 32) (hkl : k < xs.length) (x₁ : S256x128.Idx → α) (hxk : xs[k] = ⟨S256x128, x₁⟩)
    (r : Fin 256) (d : Fin 128) (hj : 128 * k + d.val < 4096) :
    concatenate S256x4096 1 xs hc (ix2 r ⟨128 * k + d.val, hj⟩) = x₁ (ix2 r d) := by
  have e : (if h : S256x128.rank = S256x4096.rank then S256x128.size ((1 : Fin S256x4096.rank).cast h.symm) else 0)
      = 128 := rfl
  have hpre : (((xs.take k).map (·.1)).map fun s =>
      if h : s.rank = S256x4096.rank then s.size ((1 : Fin S256x4096.rank).cast h.symm) else 0).sum = 128 * k := by
    rw [List.map_take, hsh, List.take_replicate, List.map_replicate, List.sum_replicate, e, smul_eq_mul,
      Nat.min_eq_left (by omega)]
    omega
  refine concatenate_apply_piece (1 : Fin S256x4096.rank) xs hc _ k hkl S256x128 x₁ hxk rfl (128 * k) hpre
    (ix2 r d) ?_ ?_
  · intro b hb
    fin_cases b
    · rfl
    · exact absurd rfl hb
  · rfl

/-- What the kernel body leaves in its output block, as a row-major function of the input block's: the five
    stages across the 32 lane chunks of each row, scaled. -/
theorem payload_flat (x0 : Vec Ideal S256x4096 .f32) (fb : ℕ → EReal) (hx : Flat (s := S256x4096) x0 fb) :
    Flat (s := S256x4096) (out0_1 (F := Ideal) x0) (fun n => whtLane fb n * scale) := by
  have hz : (![0, 0] : Fin 2 → ℕ) = fun _ => 0 := by funext a; fin_cases a <;> rfl
  -- the block is written once, whole: what it holds is the one payload, computed from the whole input block
  unfold out0_1
  rw [View.canon_unit_zero hz]
  simp only [View.ld_unit_zero (S := S256x4096) hz]
  have hx1 : Flat (s := S256x4096) (k0_pay1 x0) fb := by unfold k0_pay1; exact hx.reshape _
  -- an index of the block: row `r`, lane chunk `h`, lane `d` of the chunk
  intro i
  obtain ⟨r, j, rfl⟩ : ∃ (r : Fin 256) (j : Fin 4096), i = ix2 r j := ⟨i 0, i 1, eq_ix2 i⟩
  obtain ⟨h, hh, d, rfl⟩ : ∃ (h : ℕ) (hh : h < 32) (d : Fin 128), j = ⟨128 * h + d.val, by omega⟩ :=
    ⟨j.val / 128, by omega, ⟨j.val % 128, by omega⟩, Fin.ext (by show j.val = 128 * (j.val / 128) + j.val % 128; omega)⟩
  have hR : (S256x4096.rowMajor (ix2 r (⟨128 * h + d.val, by omega⟩ : Fin 4096))).val = laneAt r.val d.val h := by
    rw [Shape.rowMajor_val_two]
    show r.val * 4096 + (128 * h + d.val) = 4096 * r.val + 128 * h + d.val
    omega
  -- the right side there is the 32-point transform, at `h`, of the row's 32 entries at lane `d` of each chunk
  show _ = whtLane fb _ * scale
  rw [hR, ← whtLane_at fb r.val d.val d.isLt h hh]
  -- the left side is chunk `h` of the concatenation at `(r, d)`: 31 sums and differences of the 32 slices at
  -- `(r, d)`, times the constant; for each `h` both sides unfold to the same expression in the 32 entries
  unfold k0_pay203
  interval_cases h <;>
    (refine (cat_read _ _ rfl _ (by omega) (Nat.lt_of_sub_eq_succ rfl) _ rfl r d _).trans ?_
     simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, addf_apply, subf_apply, mulf_apply, broadcast_apply, slice_read hx1, Ideal.ofBits_def, scale,
      whtRow, stageF, laneAt, Nat.reduceDiv, Nat.reduceMod, Nat.reduceAdd, Nat.reduceSub, Nat.reduceMul, Nat.reduceEqDiff, reduceIte])

end Cert.Butterfly

end
-- ==== Proof.KerValue.lean ====
/-
  The kernel program's run, from blocks of rows to the whole result.

  The program reshapes the argument to 16384 rows of 4096, lets each of 64 grid points transform one
  block of 256 rows, and reshapes the rows back. Block `T` of an array of rows has the array's
  row-major function shifted by `1048576 T` (`block_flat`), and a butterfly stage commutes with a shift
  by a multiple of twice its stride (`stageF_shift`), so what point `T` writes back is block `T` of the
  specification read as rows (`flushed_eq`); the blocks cover the rows (`cover`), which gives the
  region's result array (`final`), and the two reshapes keep the row-major function (`tail_eq`).
-/
import proofs.«125641_j46153718563373_1_alg».proof.Proof.KerPayload
import Idealize.ShloMosaic.Lib.StableHlo.Run

noncomputable section

namespace Cert.Butterfly

open Idealize.ShloMosaic Idealize.ShloMosaic.TcCoe Idealize.SL.Sem Idealize.ShloMosaic.ValueIdx Cert.KernelIdeal Cert.KernelIdeal.Gen

/-! ## A stage on a shifted function -/

/-- A stage at stride `c` commutes with a shift of the positions by a multiple of `2 c`: the shift keeps the half
    a position lies in and carries partners to partners. -/
theorem stageF_shift (c k : ℕ) (hc : 0 < c) (f : ℕ → EReal) :
    stageF c (fun n => f (c * (2 * k) + n)) = fun n => stageF c f (c * (2 * k) + n) := by
  funext n
  unfold stageF
  have hd : (c * (2 * k) + n) / c = n / c + 2 * k := by
    rw [Nat.add_comm, Nat.add_mul_div_left _ _ hc]
  have hp : ((c * (2 * k) + n) / c) % 2 = (n / c) % 2 := by rw [hd]; omega
  by_cases h : (n / c) % 2 = 0
  · rw [if_pos h, if_pos (hp.trans h), Nat.add_assoc]
  · rw [if_neg h, if_neg (fun e => h (hp.symm.trans e))]
    have hcn : c ≤ n := by
      by_contra hlt
      rw [Nat.div_eq_of_lt (Nat.lt_of_not_le hlt)] at h
      exact h rfl
    rw [Nat.add_sub_assoc hcn]

/-- The five lane-chunk stages on a block of 256 rows are the five stages on the whole array, read at the block. -/
theorem whtLane_shift (X : ℕ → EReal) (T n : ℕ) :
    whtLane (fun n => X (1048576 * T + n)) n = whtLane X (1048576 * T + n) := by
  unfold whtLane
  have e128 : 1048576 * T = 128 * (2 * (4096 * T)) := by omega
  have e256 : 1048576 * T = 256 * (2 * (2048 * T)) := by omega
  have e512 : 1048576 * T = 512 * (2 * (1024 * T)) := by omega
  have e1024 : 1048576 * T = 1024 * (2 * (512 * T)) := by omega
  have e2048 : 1048576 * T = 2048 * (2 * (256 * T)) := by omega
  have s1 : stageF 128 (fun n => X (1048576 * T + n)) = fun n => stageF 128 X (1048576 * T + n) := by
    rw [e128]; exact stageF_shift 128 _ (by norm_num) X
  have s2 : stageF 256 (fun n => stageF 128 X (1048576 * T + n)) = fun n => stageF 256 (stageF 128 X) (1048576 * T + n) := by
    rw [e256]; exact stageF_shift 256 _ (by norm_num) _
  have s3 : stageF 512 (fun n => stageF 256 (stageF 128 X) (1048576 * T + n))
      = fun n => stageF 512 (stageF 256 (stageF 128 X)) (1048576 * T + n) := by
    rw [e512]; exact stageF_shift 512 _ (by norm_num) _
  have s4 : stageF 1024 (fun n => stageF 512 (stageF 256 (stageF 128 X)) (1048576 * T + n))
      = fun n => stageF 1024 (stageF 512 (stageF 256 (stageF 128 X))) (1048576 * T + n) := by
    rw [e1024]; exact stageF_shift 1024 _ (by norm_num) _
  have s5 : stageF 2048 (fun n => stageF 1024 (stageF 512 (stageF 256 (stageF 128 X))) (1048576 * T + n))
      = fun n => stageF 2048 (stageF 1024 (stageF 512 (stageF 256 (stageF 128 X)))) (1048576 * T + n) := by
    rw [e2048]; exact stageF_shift 2048 _ (by norm_num) _
  rw [s1, s2, s3, s4, s5]

/-! ## Blocks of rows by their row-major functions -/

/-- A block of 256 rows of an array of 4096-entry rows, the block's rows being rows `256 T …` of the array, has
    the array's row-major function shifted by `1048576 T`. -/
theorem block_flat (A : S16384x4096.Idx → EReal) (X : ℕ → EReal) (hA : Flat (s := S16384x4096) A X) (T : ℕ)
    (b : S256x4096.Idx → EReal)
    (hb : ∀ j : S256x4096.Idx, ∃ i : S16384x4096.Idx, (i 0).val = T * 256 + 1 * (j 0).val ∧ (i 1).val = 0 * 4096 + 1 * (j 1).val ∧ b j = A i) :
    Flat (s := S256x4096) b (fun n => X (1048576 * T + n)) := by
  intro j
  obtain ⟨i, h0, h1, e⟩ := hb j
  rw [e, hA i]
  congr 1
  rw [Shape.rowMajor_val_two, Shape.rowMajor_val_two, h0, h1]
  show (T * 256 + 1 * (j 0).val) * 4096 + (0 * 4096 + 1 * (j 1).val) = 1048576 * T + ((j 0).val * 4096 + (j 1).val)
  omega

/-- The whole result of the region, as an array of rows: the specification read at the row-major position. -/
def Gk (x : FVec Ideal SArg .f32) : S16384x4096.Idx → EReal := fun i => specF (flatOf x) (S16384x4096.rowMajor i).val

theorem flat_Gk (x : FVec Ideal SArg .f32) : Flat (s := S16384x4096) (Gk x) (specF (flatOf x)) := fun _ => rfl

/-- What the body leaves for a block whose rows are rows `256 T …` of the array is that block of `Gk`. -/
theorem point_eq (X : ℕ → EReal) (T : ℕ) (x0 : Vec Ideal S256x4096 .f32)
    (hx0 : Flat (s := S256x4096) x0 (fun n => X (1048576 * T + n)))
    (j : S256x4096.Idx) (i : S16384x4096.Idx) (h0 : (i 0).val = T * 256 + 1 * (j 0).val) (h1 : (i 1).val = 0 * 4096 + 1 * (j 1).val) :
    out0_1 (F := Ideal) x0 j = specF X (S16384x4096.rowMajor i).val := by
  rw [payload_flat x0 _ hx0 j]
  show whtLane (fun n => X (1048576 * T + n)) (S256x4096.rowMajor j).val * scale = whtLane X (S16384x4096.rowMajor i).val * scale
  rw [whtLane_shift]
  congr 2
  rw [Shape.rowMajor_val_two, Shape.rowMajor_val_two, h0, h1]
  show 1048576 * T + ((j 0).val * 4096 + (j 1).val) = (T * 256 + 1 * (j 0).val) * 4096 + (0 * 4096 + 1 * (j 1).val)
  omega

section
variable (m : (ℓ : Loc nD τ sig) → Buf (Elt Ideal) ℓ) (ρ : Dev nD → PrngReg)

/-- The region's input array is the argument reshaped to rows. -/
theorem V_main_v0 (c : Dev nD) :
    (V m c main_v0 : S16384x4096.Idx → EReal)
      = shapeCast S16384x4096 (m ((c.tc : Thread nD τ).loc main_arg0) : S4x4096x4096.Idx → EReal) shapeCasts_S4x4096x4096_S16384x4096 := by
  show StableHlo.after hostOps0 (fun b => m (c, b)) (Proc.devRef .tc main_v0) = _
  after_results
  rfl

theorem flat_V (c : Dev nD) :
    Flat (s := S16384x4096) (V m c main_v0 : S16384x4096.Idx → EReal) (flatOf (s := SArg) (m ((c.tc : Thread nD τ).loc main_arg0))) := by
  rw [V_main_v0]
  exact Flat.reshape (flat_flatOf (s := SArg) _) _

/-- The printed index maps over the grid: point `t` takes block row `t`, block column 0, of both windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` has the argument's row-major function shifted to the block. -/
theorem iblk_flat (c : Dev nD) (t : Fin cfg0.N) :
    Flat (s := S256x4096) (iblk m c 0 t) (fun n => flatOf (s := SArg) (m ((c.tc : Thread nD τ).loc main_arg0)) (1048576 * t.val + n)) := by
  refine block_flat (V m c main_v0) _ (flat_V m c) t.val (iblk m c 0 t) (fun j => ?_)
  obtain ⟨e0, e1, -, -⟩ := idx_facts t
  refine ⟨((cfg0.win 0).blk t).view.emb j, ?_, ?_, rfl⟩
  · show win0_0.index t (0 : Fin 2) * 256 + 1 * (j 0).val = _
    rw [e0]
  · show win0_0.index t (1 : Fin 2) * 4096 + 1 * (j 1).val = _
    rw [e1]

/-- WHAT POINT `t` WRITES BACK is block `t` of `Gk`. -/
theorem flushed_eq (c : Dev nD) (t : Fin cfg0.N) :
    (dats m 0 c).flushed 1 t = ((cfg0.win 1).blk t).view.read (Elt Ideal) (Gk (m ((c.tc : Thread nD τ).loc main_arg0))) := by
  show (cfg0.win 1).cut (grid0.coords t) ((dats m 0 c).after 1 t) = _
  rw [after0_1]
  obtain ⟨-, -, e0, e1⟩ := idx_facts t
  funext j
  refine point_eq _ t.val (iblk m c 0 t) (iblk_flat m c t) j (((cfg0.win 1).blk t).view.emb j) ?_ ?_
  · show win0_1.index t (0 : Fin 2) * 256 + 1 * (j 0).val = _
    rw [e0]
  · show win0_1.index t (1 : Fin 2) * 4096 + 1 * (j 1).val = _
    rw [e1]

/-- An index of the array is in point `t`'s block iff each coordinate is in the block's range on its axis. -/
theorem mem_blk (t : Fin cfg0.N) (i : S16384x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Row `R` of the result is written back by point `R / 256`. -/
theorem cover (i : S16384x4096.Idx) :
    ∃ t : Fin cfg0.N, (cfg0.win 1).flush t = true ∧ i ∈ ((cfg0.win 1).blk t).view.set := by
  have hN : cfg0.N = 64 := N_0
  have hi0 : (i 0).val < 16384 := (i 0).isLt
  have hi1 : (i 1).val < 4096 := (i 1).isLt
  have ht : (i 0).val / 256 < cfg0.N := by rw [hN]; omega
  obtain ⟨-, -, e0, e1⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val ∧ (i 0).val < win0_1.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_1.index ⟨(i 0).val / 256, ht⟩ (1 : Fin 2) * 4096 ≤ (i 1).val ∧ (i 1).val < win0_1.index ⟨(i 0).val / 256, ht⟩ (1 : Fin 2) * 4096 + 4096
    rw [e1]
    omega

/-- The region's result array after the run is `Gk` of the argument. -/
theorem final (c : Dev nD) : (dats m 0 c).arrAt 1 cfg0.N = Gk (m ((c.tc : Thread nD τ).loc main_arg0)) :=
  (dats m 0 c).arrAt_eq_of_cover 1 (Gk (m ((c.tc : Thread nD τ).loc main_arg0))) (fun t _ => flushed_eq m c t) cover

/-- The reshape after the region leaves the specification's array. -/
theorem tail_eq (c : Dev nD) :
    Pipeline.afterTail₀ cfgs (dats m) 0 (V0 m) [hostOps1] c main_v2 = G (m ((c.tc : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Gk (m ((c.tc : Thread nD τ).loc main_arg0)) :=
    (Pipeline.withArrays_arr spec0 launch0.win.arr_inj c _ _ 1).trans (final m c)
  show shapeCast S4x4096x4096 (Pipeline.withArrays (cfgs 0).spec c (V0 m c) (fun w => (dats m 0 c).arrAt w (cfgs 0).N) (Proc.devRef .tc main_v1))
      shapeCasts_S16384x4096_S4x4096x4096 = _
  rw [e]
  exact Flat.eq (Flat.reshape (flat_Gk _) _) (flat_G _)

end

/-- The idealized kernel program's run: the result array ends at `G` of the argument array, the argument unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.Butterfly

end
-- ==== Proof.RefOps.lean ====
/-
  The transposed program's operations on row-major functions.

  The program that transposes heads and lanes holds, for each of the 2097152 = 16384 * 128 pairs
  (row, lane), its 32 entries consecutively, and runs a stage at stride `c` (c = 1, 2, 4, 8, 16) as:
  view the 32 entries as `m = 16 / c` pairs of runs of `c` (shape `[N, m, 2, c]`); cut out the first and
  the second run of every pair (`[N, m, 1, c]`, read as `[N, m, c]`); add and subtract them; put the
  unit axis back; lay sum and difference side by side along the pair axis. Each of these re-indexes
  the row-major function (`slice_*`, `bcast_*`, `concat_*`), and together they are `stageF c`
  (`ref_stage_*`). The five blocks below are the same argument at the five literal shapes.
  Before the stages heads and lanes are exchanged (`transpose_in`), after them exchanged back
  (`transpose_out`) and every entry is multiplied by the scale (`mul_scale`).
-/
import proofs.«125641_j46153718563373_1_alg».proof.Proof.Spec
import Idealize.ShloMosaic.Lib.IdealHost

noncomputable section

namespace Cert.Butterfly

open Idealize.ShloMosaic Idealize.ShloMosaic.ValueIdx

/-! ## Row-major positions of indices given by their coordinates -/

theorem rm2 {n0 n1 : ℕ} (a : Fin n0) (b : Fin n1) :
    ((⟨2, ![n0, n1]⟩ : Shape).rowMajor (ix2 a b)).val = a.val * n1 + b.val := by
  rw [Shape.rowMajor_val_two]; rfl

theorem rm3 {n0 n1 n2 : ℕ} (a : Fin n0) (b : Fin n1) (c : Fin n2) :
    ((⟨3, ![n0, n1, n2]⟩ : Shape).rowMajor (ix3 a b c)).val = (a.val * n1 + b.val) * n2 + c.val := by
  rw [Shape.rowMajor_val_three]; rfl

theorem rm4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val := by
  rw [Shape.rowMajor_val_four]; rfl

/-! ## Stage at stride 1: 16 pairs of single entries -/

/-- Half `j0` of every pair: the entries at pair position `j0`, the pairs kept in order. -/
theorem slice_16_1 (j0 : ℕ) (hj0 : j0 < 2) {x : FVec Ideal ⟨4, ![2097152, 16, 2, 1]⟩ .f32} {f : ℕ → EReal} (hx : Flat x f)
    (h : (⟨4, ![2097152, 16, 2, 1]⟩ : Shape).Slices ![0, 0, j0, 0] ⟨4, ![2097152, 16, 1, 1]⟩) :
    Flat (extractStridedSlice ⟨4, ![2097152, 16, 1, 1]⟩ ![0, 0, j0, 0] x h) (fun n => f (n + n / 1 * 1 + j0 * 1)) := by
  intro j
  obtain ⟨b, p, u, k, rfl⟩ : ∃ (b : Fin 2097152) (p : Fin 16) (u : Fin 1) (k : Fin 1), j = ix4 b p u k :=
    ⟨j 0, j 1, j 2, j 3, eq_ix4 j⟩
  have hb := b.isLt; have hp := p.isLt; have hu := u.isLt; have hk := k.isLt
  refine (extractStridedSlice_apply _ x h _ (ix4 b p (⟨j0, hj0⟩ : Fin 2) k) (fun a => ?_)).trans ?_
  · match a with
    | ⟨0, _⟩ => show b.val = 0 + b.val; omega
    | ⟨1, _⟩ => show p.val = 0 + p.val; omega
    | ⟨2, _⟩ => show j0 = j0 + u.val; omega
    | ⟨3, _⟩ => show k.val = 0 + k.val; omega
  · rw [hx]
    show f _ = f _
    rw [rm4, rm4]
    congr 1
    show ((b.val * 16 + p.val) * 2 + j0) * 1 + k.val
      = ((b.val * 16 + p.val) * 1 + u.val) * 1 + k.val + (((b.val * 16 + p.val) * 1 + u.val) * 1 + k.val) / 1 * 1 + j0 * 1
    omega

/-- A unit axis put back between the pair index and the entries keeps every position. -/
theorem bcast_16_1 {y : FVec Ideal ⟨3, ![2097152, 16, 1]⟩ .f32} {g : ℕ → EReal} (hy : Flat y g)
    (h : (⟨3, ![2097152, 16, 1]⟩ : Shape).BroadcastsInDim ⟨4, ![2097152, 16, 1, 1]⟩ ![0, 1, 3]) :
    Flat (broadcastInDim ⟨4, ![2097152, 16, 1, 1]⟩ ![0, 1, 3] h y) g := by
  intro j
  obtain ⟨b, p, u, k, rfl⟩ : ∃ (b : Fin 2097152) (p : Fin 16) (u : Fin 1) (k : Fin 1), j = ix4 b p u k :=
    ⟨j 0, j 1, j 2, j 3, eq_ix4 j⟩
  have hb := b.isLt; have hp := p.isLt; have hu := u.isLt; have hk := k.isLt
  refine (broadcastInDim_apply _ h y _ (ix3 b p k) (fun a => ?_)).trans ?_
  · match a with
    | ⟨0, _⟩ => rfl
    | ⟨1, _⟩ => rfl
    | ⟨2, _⟩ => show k.val = 0; omega
  · rw [hy, rm3, rm4]
    congr 1
    omega

/-- The two halves laid side by side along the pair axis: position `n` lies in half `(n / 1) % 2`. -/
theorem concat_16_1 {a b : FVec Ideal ⟨4, ![2097152, 16, 1, 1]⟩ .f32} {g0 g1 : ℕ → EReal} (ha : Flat a g0) (hb : Flat b g1)
    (h : Shape.Concatenates ([(⟨⟨4, ![2097152, 16, 1, 1]⟩, a⟩ : (s : Shape) × (s.Idx → EReal)), ⟨⟨4, ![2097152, 16, 1, 1]⟩, b⟩].map (·.1))
      ⟨4, ![2097152, 16, 2, 1]⟩ 2) :
    Flat (concatenate ⟨4, ![2097152, 16, 2, 1]⟩ 2 [⟨⟨4, ![2097152, 16, 1, 1]⟩, a⟩, ⟨⟨4, ![2097152, 16, 1, 1]⟩, b⟩] h)
      (fun n => if (n / 1) % 2 = 0 then g0 (n / 2 * 1 + n % 1) else g1 (n / 2 * 1 + n % 1)) := by
  intro j
  obtain ⟨q, p, u, k, rfl⟩ : ∃ (q : Fin 2097152) (p : Fin 16) (u : Fin 2) (k : Fin 1), j = ix4 q p u k :=
    ⟨j 0, j 1, j 2, j 3, eq_ix4 j⟩
  have hq := q.isLt; have hp := p.isLt; have hu := u.isLt; have hk := k.isLt
  show _ = if _ then _ else _
  rw [rm4]
  by_cases hu0 : u.val = 0
  · refine (concatenate_pair_apply_left 2 a b h _ rfl (ix4 q p (0 : Fin 1) k) (fun c => ?_)).trans ?_
    · match c with
      | ⟨0, _⟩ => rfl
      | ⟨1, _⟩ => rfl
      | ⟨2, _⟩ => show 0 = u.val; omega
      | ⟨3, _⟩ => rfl
    · rw [if_pos (by omega), ha, rm4]
      congr 1
      show ((q.val * 16 + p.val) * 1 + 0) * 1 + k.val = (((q.val * 16 + p.val) * 2 + u.val) * 1 + k.val) / 2 * 1 + (((q.val * 16 + p.val) * 2 + u.val) * 1 + k.val) % 1
      omega
  · refine (concatenate_pair_apply_right 2 a b h _ rfl rfl (ix4 q p (0 : Fin 1) k) (fun c hc => ?_) ?_).trans ?_
    · match c with
      | ⟨0, _⟩ => rfl
      | ⟨1, _⟩ => rfl
      | ⟨2, _⟩ => exact absurd rfl hc
      | ⟨3, _⟩ => rfl
    · show 0 + 1 = u.val; omega
    · rw [if_neg (by omega), hb, rm4]
      congr 1
      show ((q.val * 16 + p.val) * 1 + 0) * 1 + k.val = (((q.val * 16 + p.val) * 2 + u.val) * 1 + k.val) / 2 * 1 + (((q.val * 16 + p.val) * 2 + u.val) * 1 + k.val) % 1
      omega

/-- The whole stage at stride 1: the halves' sum and difference, side by side, are `stageF 1` of the row-major function. -/
theorem ref_stage_1 {x : FVec Ideal ⟨4, ![2097152, 16, 2, 1]⟩ .f32} {f : ℕ → EReal} (hx : Flat x f)
    (hs0 : (⟨4, ![2097152, 16, 2, 1]⟩ : Shape).Slices ![0, 0, 0, 0] ⟨4, ![2097152, 16, 1, 1]⟩)
    (hs1 : (⟨4, ![2097152, 16, 2, 1]⟩ : Shape).Slices ![0, 0, 1, 0] ⟨4, ![2097152, 16, 1, 1]⟩)
    (hc : (⟨4, ![2097152, 16, 1, 1]⟩ : Shape).ShapeCasts ⟨3, ![2097152, 16, 1]⟩)
    (hb : (⟨3, ![2097152, 16, 1]⟩ : Shape).BroadcastsInDim ⟨4, ![2097152, 16, 1, 1]⟩ ![0, 1, 3])
    (hcc : Shape.Concatenates [⟨4, ![2097152, 16, 1, 1]⟩, ⟨4, ![2097152, 16, 1, 1]⟩] ⟨4, ![2097152, 16, 2, 1]⟩ 2) :
    Flat (concatenate ⟨4, ![2097152, 16, 2, 1]⟩ 2
      [⟨⟨4, ![2097152, 16, 1, 1]⟩, broadcastInDim ⟨4, ![2097152, 16, 1, 1]⟩ ![0, 1, 3] hb
          (addf (shapeCast ⟨3, ![2097152, 16, 1]⟩ (extractStridedSlice ⟨4, ![2097152, 16, 1, 1]⟩ ![0, 0, 0, 0] x hs0) hc)
            (shapeCast ⟨3, ![2097152, 16, 1]⟩ (extractStridedSlice ⟨4, ![2097152, 16, 1, 1]⟩ ![0, 0, 1, 0] x hs1) hc))⟩,
       ⟨⟨4, ![2097152, 16, 1, 1]⟩, broadcastInDim ⟨4, ![2097152, 16, 1, 1]⟩ ![0, 1, 3] hb
          (subf (shapeCast ⟨3, ![2097152, 16, 1]⟩ (extractStridedSlice ⟨4, ![2097152, 16, 1, 1]⟩ ![0, 0, 0, 0] x hs0) hc)
            (shapeCast ⟨3, ![2097152, 16, 1]⟩ (extractStridedSlice ⟨4, ![2097152, 16, 1, 1]⟩ ![0, 0, 1, 0] x hs1) hc))⟩] hcc)
      (stageF 1 f) := by
  have h0 := (slice_16_1 0 (by omega) hx hs0).reshape hc
  have h1 := (slice_16_1 1 (by omega) hx hs1).reshape hc
  refine (concat_16_1 (bcast_16_1 (h0.add h1) hb) (bcast_16_1 (h0.sub h1) hb) hcc).congr (fun n _ => ?_)
  unfold stageF
  by_cases hn : (n / 1) % 2 = 0
  · rw [if_pos hn, if_pos hn]
    show f _ + f _ = f _ + f _
    congr 2 <;> omega
  · rw [if_neg hn, if_neg hn]
    show f _ - f _ = f _ - f _
    congr 2 <;> omega

/-! ## Stage at stride 2: 8 pairs of runs of 2 entries -/

theorem slice_8_2 (j0 : ℕ) (hj0 : j0 < 2) {x : FVec Ideal ⟨4, ![2097152, 8, 2, 2]⟩ .f32} {f : ℕ → EReal} (hx : Flat x f)
    (h : (⟨4, ![2097152, 8, 2, 2]⟩ : Shape).Slices ![0, 0, j0, 0] ⟨4, ![2097152, 8, 1, 2]⟩) :
    Flat (extractStridedSlice ⟨4, ![2097152, 8, 1, 2]⟩ ![0, 0, j0, 0] x h) (fun n => f (n + n / 2 * 2 + j0 * 2)) := by
  intro j
  obtain ⟨b, p, u, k, rfl⟩ : ∃ (b : Fin 2097152) (p : Fin 8) (u : Fin 1) (k : Fin 2), j = ix4 b p u k :=
    ⟨j 0, j 1, j 2, j 3, eq_ix4 j⟩
  have hb := b.isLt; have hp := p.isLt; have hu := u.isLt; have hk := k.isLt
  refine (extractStridedSlice_apply _ x h _ (ix4 b p (⟨j0, hj0⟩ : Fin 2) k) (fun a => ?_)).trans ?_
  · match a with
    | ⟨0, _⟩ => show b.val = 0 + b.val; omega
    | ⟨1, _⟩ => show p.val = 0 + p.val; omega
    | ⟨2, _⟩ => show j0 = j0 + u.val; omega
    | ⟨3, _⟩ => show k.val = 0 + k.val; omega
  · rw [hx]
    show f _ = f _
    rw [rm4, rm4]
    congr 1
    dsimp only
    omega

theorem bcast_8_2 {y : FVec Ideal ⟨3, ![2097152, 8, 2]⟩ .f32} {g : ℕ → EReal} (hy : Flat y g)
    (h : (⟨3, ![2097152, 8, 2]⟩ : Shape).BroadcastsInDim ⟨4, ![2097152, 8, 1, 2]⟩ ![0, 1, 3]) :
    Flat (broadcastInDim ⟨4, ![2097152, 8, 1, 2]⟩ ![0, 1, 3] h y) g := by
  intro j
  obtain ⟨b, p, u, k, rfl⟩ : ∃ (b : Fin 2097152) (p : Fin 8) (u : Fin 1) (k : Fin 2), j = ix4 b p u k :=
    ⟨j 0, j 1, j 2, j 3, eq_ix4 j⟩
  have hb := b.isLt; have hp := p.isLt; have hu := u.isLt; have hk := k.isLt
  refine (broadcastInDim_apply _ h y _ (ix3 b p k) (fun a => ?_)).trans ?_
  · match a with
    | ⟨0, _⟩ => rfl
    | ⟨1, _⟩ => rfl
    | ⟨2, _⟩ => rfl
  · rw [hy, rm3, rm4]
    congr 1
    omega

theorem concat_8_2 {a b : FVec Ideal ⟨4, ![2097152, 8, 1, 2]⟩ .f32} {g0 g1 : ℕ → EReal} (ha : Flat a g0) (hb : Flat b g1)
    (h : Shape.Concatenates ([(⟨⟨4, ![2097152, 8, 1, 2]⟩, a⟩ : (s : Shape) × (s.Idx → EReal)), ⟨⟨4, ![2097152, 8, 1, 2]⟩, b⟩].map (·.1))
      ⟨4, ![2097152, 8, 2, 2]⟩ 2) :
    Flat (concatenate ⟨4, ![2097152, 8, 2, 2]⟩ 2 [⟨⟨4, ![2097152, 8, 1, 2]⟩, a⟩, ⟨⟨4, ![2097152, 8, 1, 2]⟩, b⟩] h)
      (fun n => if (n / 2) % 2 = 0 then g0 (n / 4 * 2 + n % 2) else g1 (n / 4 * 2 + n % 2)) := by
  intro j
  obtain ⟨q, p, u, k, rfl⟩ : ∃ (q : Fin 2097152) (p : Fin 8) (u : Fin 2) (k : Fin 2), j = ix4 q p u k :=
    ⟨j 0, j 1, j 2, j 3, eq_ix4 j⟩
  have hq := q.isLt; have hp := p.isLt; have hu := u.isLt; have hk := k.isLt
  show _ = if _ then _ else _
  rw [rm4]
  by_cases hu0 : u.val = 0
  · refine (concatenate_pair_apply_left 2 a b h _ rfl (ix4 q p (0 : Fin 1) k) (fun c => ?_)).trans ?_
    · match c with
      | ⟨0, _⟩ => rfl
      | ⟨1, _⟩ => rfl
      | ⟨2, _⟩ => show 0 = u.val; omega
      | ⟨3, _⟩ => rfl
    · rw [if_pos (by omega), ha, rm4]
      congr 1
      omega
  · refine (concatenate_pair_apply_right 2 a b h _ rfl rfl (ix4 q p (0 : Fin 1) k) (fun c hc => ?_) ?_).trans ?_
    · match c with
      | ⟨0, _⟩ => rfl
      | ⟨1, _⟩ => rfl
      | ⟨2, _⟩ => exact absurd rfl hc
      | ⟨3, _⟩ => rfl
    · show 0 + 1 = u.val; omega
    · rw [if_neg (by omega), hb, rm4]
      congr 1
      omega

theorem ref_stage_2 {x : FVec Ideal ⟨4, ![2097152, 8, 2, 2]⟩ .f32} {f : ℕ → EReal} (hx : Flat x f)
    (hs0 : (⟨4, ![2097152, 8, 2, 2]⟩ : Shape).Slices ![0, 0, 0, 0] ⟨4, ![2097152, 8, 1, 2]⟩)
    (hs1 : (⟨4, ![2097152, 8, 2, 2]⟩ : Shape).Slices ![0, 0, 1, 0] ⟨4, ![2097152, 8, 1, 2]⟩)
    (hc : (⟨4, ![2097152, 8, 1, 2]⟩ : Shape).ShapeCasts ⟨3, ![2097152, 8, 2]⟩)
    (hb : (⟨3, ![2097152, 8, 2]⟩ : Shape).BroadcastsInDim ⟨4, ![2097152, 8, 1, 2]⟩ ![0, 1, 3])
    (hcc : Shape.Concatenates [⟨4, ![2097152, 8, 1, 2]⟩, ⟨4, ![2097152, 8, 1, 2]⟩] ⟨4, ![2097152, 8, 2, 2]⟩ 2) :
    Flat (concatenate ⟨4, ![2097152, 8, 2, 2]⟩ 2
      [⟨⟨4, ![2097152, 8, 1, 2]⟩, broadcastInDim ⟨4, ![2097152, 8, 1, 2]⟩ ![0, 1, 3] hb
          (addf (shapeCast ⟨3, ![2097152, 8, 2]⟩ (extractStridedSlice ⟨4, ![2097152, 8, 1, 2]⟩ ![0, 0, 0, 0] x hs0) hc)
            (shapeCast ⟨3, ![2097152, 8, 2]⟩ (extractStridedSlice ⟨4, ![2097152, 8, 1, 2]⟩ ![0, 0, 1, 0] x hs1) hc))⟩,
       ⟨⟨4, ![2097152, 8, 1, 2]⟩, broadcastInDim ⟨4, ![2097152, 8, 1, 2]⟩ ![0, 1, 3] hb
          (subf (shapeCast ⟨3, ![2097152, 8, 2]⟩ (extractStridedSlice ⟨4, ![2097152, 8, 1, 2]⟩ ![0, 0, 0, 0] x hs0) hc)
            (shapeCast ⟨3, ![2097152, 8, 2]⟩ (extractStridedSlice ⟨4, ![2097152, 8, 1, 2]⟩ ![0, 0, 1, 0] x hs1) hc))⟩] hcc)
      (stageF 2 f) := by
  have h0 := (slice_8_2 0 (by omega) hx hs0).reshape hc
  have h1 := (slice_8_2 1 (by omega) hx hs1).reshape hc
  refine (concat_8_2 (bcast_8_2 (h0.add h1) hb) (bcast_8_2 (h0.sub h1) hb) hcc).congr (fun n _ => ?_)
  unfold stageF
  by_cases hn : (n / 2) % 2 = 0
  · rw [if_pos hn, if_pos hn]
    show f _ + f _ = f _ + f _
    congr 2 <;> omega
  · rw [if_neg hn, if_neg hn]
    show f _ - f _ = f _ - f _
    congr 2 <;> omega

/-! ## Stage at stride 4: 4 pairs of runs of 4 entries -/

theorem slice_4_4 (j0 : ℕ) (hj0 : j0 < 2) {x : FVec Ideal ⟨4, ![2097152, 4, 2, 4]⟩ .f32} {f : ℕ → EReal} (hx : Flat x f)
    (h : (⟨4, ![2097152, 4, 2, 4]⟩ : Shape).Slices ![0, 0, j0, 0] ⟨4, ![2097152, 4, 1, 4]⟩) :
    Flat (extractStridedSlice ⟨4, ![2097152, 4, 1, 4]⟩ ![0, 0, j0, 0] x h) (fun n => f (n + n / 4 * 4 + j0 * 4)) := by
  intro j
  obtain ⟨b, p, u, k, rfl⟩ : ∃ (b : Fin 2097152) (p : Fin 4) (u : Fin 1) (k : Fin 4), j = ix4 b p u k :=
    ⟨j 0, j 1, j 2, j 3, eq_ix4 j⟩
  have hb := b.isLt; have hp := p.isLt; have hu := u.isLt; have hk := k.isLt
  refine (extractStridedSlice_apply _ x h _ (ix4 b p (⟨j0, hj0⟩ : Fin 2) k) (fun a => ?_)).trans ?_
  · match a with
    | ⟨0, _⟩ => show b.val = 0 + b.val; omega
    | ⟨1, _⟩ => show p.val = 0 + p.val; omega
    | ⟨2, _⟩ => show j0 = j0 + u.val; omega
    | ⟨3, _⟩ => show k.val = 0 + k.val; omega
  · rw [hx]
    show f _ = f _
    rw [rm4, rm4]
    congr 1
    dsimp only
    omega

theorem bcast_4_4 {y : FVec Ideal ⟨3, ![2097152, 4, 4]⟩ .f32} {g : ℕ → EReal} (hy : Flat y g)
    (h : (⟨3, ![2097152, 4, 4]⟩ : Shape).BroadcastsInDim ⟨4, ![2097152, 4, 1, 4]⟩ ![0, 1, 3]) :
    Flat (broadcastInDim ⟨4, ![2097152, 4, 1, 4]⟩ ![0, 1, 3] h y) g := by
  intro j
  obtain ⟨b, p, u, k, rfl⟩ : ∃ (b : Fin 2097152) (p : Fin 4) (u : Fin 1) (k : Fin 4), j = ix4 b p u k :=
    ⟨j 0, j 1, j 2, j 3, eq_ix4 j⟩
  have hb := b.isLt; have hp := p.isLt; have hu := u.isLt; have hk := k.isLt
  refine (broadcastInDim_apply _ h y _ (ix3 b p k) (fun a => ?_)).trans ?_
  · match a with
    | ⟨0, _⟩ => rfl
    | ⟨1, _⟩ => rfl
    | ⟨2, _⟩ => rfl
  · rw [hy, rm3, rm4]
    congr 1
    omega

theorem concat_4_4 {a b : FVec Ideal ⟨4, ![2097152, 4, 1, 4]⟩ .f32} {g0 g1 : ℕ → EReal} (ha : Flat a g0) (hb : Flat b g1)
    (h : Shape.Concatenates ([(⟨⟨4, ![2097152, 4, 1, 4]⟩, a⟩ : (s : Shape) × (s.Idx → EReal)), ⟨⟨4, ![2097152, 4, 1, 4]⟩, b⟩].map (·.1))
      ⟨4, ![2097152, 4, 2, 4]⟩ 2) :
    Flat (concatenate ⟨4, ![2097152, 4, 2, 4]⟩ 2 [⟨⟨4, ![2097152, 4, 1, 4]⟩, a⟩, ⟨⟨4, ![2097152, 4, 1, 4]⟩, b⟩] h)
      (fun n => if (n / 4) % 2 = 0 then g0 (n / 8 * 4 + n % 4) else g1 (n / 8 * 4 + n % 4)) := by
  intro j
  obtain ⟨q, p, u, k, rfl⟩ : ∃ (q : Fin 2097152) (p : Fin 4) (u : Fin 2) (k : Fin 4), j = ix4 q p u k :=
    ⟨j 0, j 1, j 2, j 3, eq_ix4 j⟩
  have hq := q.isLt; have hp := p.isLt; have hu := u.isLt; have hk := k.isLt
  show _ = if _ then _ else _
  rw [rm4]
  by_cases hu0 : u.val = 0
  · refine (concatenate_pair_apply_left 2 a b h _ rfl (ix4 q p (0 : Fin 1) k) (fun c => ?_)).trans ?_
    · match c with
      | ⟨0, _⟩ => rfl
      | ⟨1, _⟩ => rfl
      | ⟨2, _⟩ => show 0 = u.val; omega
      | ⟨3, _⟩ => rfl
    · rw [if_pos (by omega), ha, rm4]
      congr 1
      omega
  · refine (concatenate_pair_apply_right 2 a b h _ rfl rfl (ix4 q p (0 : Fin 1) k) (fun c hc => ?_) ?_).trans ?_
    · match c with
      | ⟨0, _⟩ => rfl
      | ⟨1, _⟩ => rfl
      | ⟨2, _⟩ => exact absurd rfl hc
      | ⟨3, _⟩ => rfl
    · show 0 + 1 = u.val; omega
    · rw [if_neg (by omega), hb, rm4]
      congr 1
      omega

theorem ref_stage_4 {x : FVec Ideal ⟨4, ![2097152, 4, 2, 4]⟩ .f32} {f : ℕ → EReal} (hx : Flat x f)
    (hs0 : (⟨4, ![2097152, 4, 2, 4]⟩ : Shape).Slices ![0, 0, 0, 0] ⟨4, ![2097152, 4, 1, 4]⟩)
    (hs1 : (⟨4, ![2097152, 4, 2, 4]⟩ : Shape).Slices ![0, 0, 1, 0] ⟨4, ![2097152, 4, 1, 4]⟩)
    (hc : (⟨4, ![2097152, 4, 1, 4]⟩ : Shape).ShapeCasts ⟨3, ![2097152, 4, 4]⟩)
    (hb : (⟨3, ![2097152, 4, 4]⟩ : Shape).BroadcastsInDim ⟨4, ![2097152, 4, 1, 4]⟩ ![0, 1, 3])
    (hcc : Shape.Concatenates [⟨4, ![2097152, 4, 1, 4]⟩, ⟨4, ![2097152, 4, 1, 4]⟩] ⟨4, ![2097152, 4, 2, 4]⟩ 2) :
    Flat (concatenate ⟨4, ![2097152, 4, 2, 4]⟩ 2
      [⟨⟨4, ![2097152, 4, 1, 4]⟩, broadcastInDim ⟨4, ![2097152, 4, 1, 4]⟩ ![0, 1, 3] hb
          (addf (shapeCast ⟨3, ![2097152, 4, 4]⟩ (extractStridedSlice ⟨4, ![2097152, 4, 1, 4]⟩ ![0, 0, 0, 0] x hs0) hc)
            (shapeCast ⟨3, ![2097152, 4, 4]⟩ (extractStridedSlice ⟨4, ![2097152, 4, 1, 4]⟩ ![0, 0, 1, 0] x hs1) hc))⟩,
       ⟨⟨4, ![2097152, 4, 1, 4]⟩, broadcastInDim ⟨4, ![2097152, 4, 1, 4]⟩ ![0, 1, 3] hb
          (subf (shapeCast ⟨3, ![2097152, 4, 4]⟩ (extractStridedSlice ⟨4, ![2097152, 4, 1, 4]⟩ ![0, 0, 0, 0] x hs0) hc)
            (shapeCast ⟨3, ![2097152, 4, 4]⟩ (extractStridedSlice ⟨4, ![2097152, 4, 1, 4]⟩ ![0, 0, 1, 0] x hs1) hc))⟩] hcc)
      (stageF 4 f) := by
  have h0 := (slice_4_4 0 (by omega) hx hs0).reshape hc
  have h1 := (slice_4_4 1 (by omega) hx hs1).reshape hc
  refine (concat_4_4 (bcast_4_4 (h0.add h1) hb) (bcast_4_4 (h0.sub h1) hb) hcc).congr (fun n _ => ?_)
  unfold stageF
  by_cases hn : (n / 4) % 2 = 0
  · rw [if_pos hn, if_pos hn]
    show f _ + f _ = f _ + f _
    congr 2 <;> omega
  · rw [if_neg hn, if_neg hn]
    show f _ - f _ = f _ - f _
    congr 2 <;> omega

/-! ## Stage at stride 8: 2 pairs of runs of 8 entries -/

theorem slice_2_8 (j0 : ℕ) (hj0 : j0 < 2) {x : FVec Ideal ⟨4, ![2097152, 2, 2, 8]⟩ .f32} {f : ℕ → EReal} (hx : Flat x f)
    (h : (⟨4, ![2097152, 2, 2, 8]⟩ : Shape).Slices ![0, 0, j0, 0] ⟨4, ![2097152, 2, 1, 8]⟩) :
    Flat (extractStridedSlice ⟨4, ![2097152, 2, 1, 8]⟩ ![0, 0, j0, 0] x h) (fun n => f (n + n / 8 * 8 + j0 * 8)) := by
  intro j
  obtain ⟨b, p, u, k, rfl⟩ : ∃ (b : Fin 2097152) (p : Fin 2) (u : Fin 1) (k : Fin 8), j = ix4 b p u k :=
    ⟨j 0, j 1, j 2, j 3, eq_ix4 j⟩
  have hb := b.isLt; have hp := p.isLt; have hu := u.isLt; have hk := k.isLt
  refine (extractStridedSlice_apply _ x h _ (ix4 b p (⟨j0, hj0⟩ : Fin 2) k) (fun a => ?_)).trans ?_
  · match a with
    | ⟨0, _⟩ => show b.val = 0 + b.val; omega
    | ⟨1, _⟩ => show p.val = 0 + p.val; omega
    | ⟨2, _⟩ => show j0 = j0 + u.val; omega
    | ⟨3, _⟩ => show k.val = 0 + k.val; omega
  · rw [hx]
    show f _ = f _
    rw [rm4, rm4]
    congr 1
    dsimp only
    omega

theorem bcast_2_8 {y : FVec Ideal ⟨3, ![2097152, 2, 8]⟩ .f32} {g : ℕ → EReal} (hy : Flat y g)
    (h : (⟨3, ![2097152, 2, 8]⟩ : Shape).BroadcastsInDim ⟨4, ![2097152, 2, 1, 8]⟩ ![0, 1, 3]) :
    Flat (broadcastInDim ⟨4, ![2097152, 2, 1, 8]⟩ ![0, 1, 3] h y) g := by
  intro j
  obtain ⟨b, p, u, k, rfl⟩ : ∃ (b : Fin 2097152) (p : Fin 2) (u : Fin 1) (k : Fin 8), j = ix4 b p u k :=
    ⟨j 0, j 1, j 2, j 3, eq_ix4 j⟩
  have hb := b.isLt; have hp := p.isLt; have hu := u.isLt; have hk := k.isLt
  refine (broadcastInDim_apply _ h y _ (ix3 b p k) (fun a => ?_)).trans ?_
  · match a with
    | ⟨0, _⟩ => rfl
    | ⟨1, _⟩ => rfl
    | ⟨2, _⟩ => rfl
  · rw [hy, rm3, rm4]
    congr 1
    omega

theorem concat_2_8 {a b : FVec Ideal ⟨4, ![2097152, 2, 1, 8]⟩ .f32} {g0 g1 : ℕ → EReal} (ha : Flat a g0) (hb : Flat b g1)
    (h : Shape.Concatenates ([(⟨⟨4, ![2097152, 2, 1, 8]⟩, a⟩ : (s : Shape) × (s.Idx → EReal)), ⟨⟨4, ![2097152, 2, 1, 8]⟩, b⟩].map (·.1))
      ⟨4, ![2097152, 2, 2, 8]⟩ 2) :
    Flat (concatenate ⟨4, ![2097152, 2, 2, 8]⟩ 2 [⟨⟨4, ![2097152, 2, 1, 8]⟩, a⟩, ⟨⟨4, ![2097152, 2, 1, 8]⟩, b⟩] h)
      (fun n => if (n / 8) % 2 = 0 then g0 (n / 16 * 8 + n % 8) else g1 (n / 16 * 8 + n % 8)) := by
  intro j
  obtain ⟨q, p, u, k, rfl⟩ : ∃ (q : Fin 2097152) (p : Fin 2) (u : Fin 2) (k : Fin 8), j = ix4 q p u k :=
    ⟨j 0, j 1, j 2, j 3, eq_ix4 j⟩
  have hq := q.isLt; have hp := p.isLt; have hu := u.isLt; have hk := k.isLt
  show _ = if _ then _ else _
  rw [rm4]
  by_cases hu0 : u.val = 0
  · refine (concatenate_pair_apply_left 2 a b h _ rfl (ix4 q p (0 : Fin 1) k) (fun c => ?_)).trans ?_
    · match c with
      | ⟨0, _⟩ => rfl
      | ⟨1, _⟩ => rfl
      | ⟨2, _⟩ => show 0 = u.val; omega
      | ⟨3, _⟩ => rfl
    · rw [if_pos (by omega), ha, rm4]
      congr 1
      omega
  · refine (concatenate_pair_apply_right 2 a b h _ rfl rfl (ix4 q p (0 : Fin 1) k) (fun c hc => ?_) ?_).trans ?_
    · match c with
      | ⟨0, _⟩ => rfl
      | ⟨1, _⟩ => rfl
      | ⟨2, _⟩ => exact absurd rfl hc
      | ⟨3, _⟩ => rfl
    · show 0 + 1 = u.val; omega
    · rw [if_neg (by omega), hb, rm4]
      congr 1
      omega

theorem ref_stage_8 {x : FVec Ideal ⟨4, ![2097152, 2, 2, 8]⟩ .f32} {f : ℕ → EReal} (hx : Flat x f)
    (hs0 : (⟨4, ![2097152, 2, 2, 8]⟩ : Shape).Slices ![0, 0, 0, 0] ⟨4, ![2097152, 2, 1, 8]⟩)
    (hs1 : (⟨4, ![2097152, 2, 2, 8]⟩ : Shape).Slices ![0, 0, 1, 0] ⟨4, ![2097152, 2, 1, 8]⟩)
    (hc : (⟨4, ![2097152, 2, 1, 8]⟩ : Shape).ShapeCasts ⟨3, ![2097152, 2, 8]⟩)
    (hb : (⟨3, ![2097152, 2, 8]⟩ : Shape).BroadcastsInDim ⟨4, ![2097152, 2, 1, 8]⟩ ![0, 1, 3])
    (hcc : Shape.Concatenates [⟨4, ![2097152, 2, 1, 8]⟩, ⟨4, ![2097152, 2, 1, 8]⟩] ⟨4, ![2097152, 2, 2, 8]⟩ 2) :
    Flat (concatenate ⟨4, ![2097152, 2, 2, 8]⟩ 2
      [⟨⟨4, ![2097152, 2, 1, 8]⟩, broadcastInDim ⟨4, ![2097152, 2, 1, 8]⟩ ![0, 1, 3] hb
          (addf (shapeCast ⟨3, ![2097152, 2, 8]⟩ (extractStridedSlice ⟨4, ![2097152, 2, 1, 8]⟩ ![0, 0, 0, 0] x hs0) hc)
            (shapeCast ⟨3, ![2097152, 2, 8]⟩ (extractStridedSlice ⟨4, ![2097152, 2, 1, 8]⟩ ![0, 0, 1, 0] x hs1) hc))⟩,
       ⟨⟨4, ![2097152, 2, 1, 8]⟩, broadcastInDim ⟨4, ![2097152, 2, 1, 8]⟩ ![0, 1, 3] hb
          (subf (shapeCast ⟨3, ![2097152, 2, 8]⟩ (extractStridedSlice ⟨4, ![2097152, 2, 1, 8]⟩ ![0, 0, 0, 0] x hs0) hc)
            (shapeCast ⟨3, ![2097152, 2, 8]⟩ (extractStridedSlice ⟨4, ![2097152, 2, 1, 8]⟩ ![0, 0, 1, 0] x hs1) hc))⟩] hcc)
      (stageF 8 f) := by
  have h0 := (slice_2_8 0 (by omega) hx hs0).reshape hc
  have h1 := (slice_2_8 1 (by omega) hx hs1).reshape hc
  refine (concat_2_8 (bcast_2_8 (h0.add h1) hb) (bcast_2_8 (h0.sub h1) hb) hcc).congr (fun n _ => ?_)
  unfold stageF
  by_cases hn : (n / 8) % 2 = 0
  · rw [if_pos hn, if_pos hn]
    show f _ + f _ = f _ + f _
    congr 2 <;> omega
  · rw [if_neg hn, if_neg hn]
    show f _ - f _ = f _ - f _
    congr 2 <;> omega

/-! ## Stage at stride 16: one pair of runs of 16 entries -/

theorem slice_1_16 (j0 : ℕ) (hj0 : j0 < 2) {x : FVec Ideal ⟨4, ![2097152, 1, 2, 16]⟩ .f32} {f : ℕ → EReal} (hx : Flat x f)
    (h : (⟨4, ![2097152, 1, 2, 16]⟩ : Shape).Slices ![0, 0, j0, 0] ⟨4, ![2097152, 1, 1, 16]⟩) :
    Flat (extractStridedSlice ⟨4, ![2097152, 1, 1, 16]⟩ ![0, 0, j0, 0] x h) (fun n => f (n + n / 16 * 16 + j0 * 16)) := by
  intro j
  obtain ⟨b, p, u, k, rfl⟩ : ∃ (b : Fin 2097152) (p : Fin 1) (u : Fin 1) (k : Fin 16), j = ix4 b p u k :=
    ⟨j 0, j 1, j 2, j 3, eq_ix4 j⟩
  have hb := b.isLt; have hp := p.isLt; have hu := u.isLt; have hk := k.isLt
  refine (extractStridedSlice_apply _ x h _ (ix4 b p (⟨j0, hj0⟩ : Fin 2) k) (fun a => ?_)).trans ?_
  · match a with
    | ⟨0, _⟩ => show b.val = 0 + b.val; omega
    | ⟨1, _⟩ => show p.val = 0 + p.val; omega
    | ⟨2, _⟩ => show j0 = j0 + u.val; omega
    | ⟨3, _⟩ => show k.val = 0 + k.val; omega
  · rw [hx]
    show f _ = f _
    rw [rm4, rm4]
    congr 1
    dsimp only
    omega

theorem bcast_1_16 {y : FVec Ideal ⟨3, ![2097152, 1, 16]⟩ .f32} {g : ℕ → EReal} (hy : Flat y g)
    (h : (⟨3, ![2097152, 1, 16]⟩ : Shape).BroadcastsInDim ⟨4, ![2097152, 1, 1, 16]⟩ ![0, 1, 3]) :
    Flat (broadcastInDim ⟨4, ![2097152, 1, 1, 16]⟩ ![0, 1, 3] h y) g := by
  intro j
  obtain ⟨b, p, u, k, rfl⟩ : ∃ (b : Fin 2097152) (p : Fin 1) (u : Fin 1) (k : Fin 16), j = ix4 b p u k :=
    ⟨j 0, j 1, j 2, j 3, eq_ix4 j⟩
  have hb := b.isLt; have hp := p.isLt; have hu := u.isLt; have hk := k.isLt
  refine (broadcastInDim_apply _ h y _ (ix3 b p k) (fun a => ?_)).trans ?_
  · match a with
    | ⟨0, _⟩ => rfl
    | ⟨1, _⟩ => show p.val = 0; omega
    | ⟨2, _⟩ => rfl
  · rw [hy, rm3, rm4]
    congr 1
    omega

theorem concat_1_16 {a b : FVec Ideal ⟨4, ![2097152, 1, 1, 16]⟩ .f32} {g0 g1 : ℕ → EReal} (ha : Flat a g0) (hb : Flat b g1)
    (h : Shape.Concatenates ([(⟨⟨4, ![2097152, 1, 1, 16]⟩, a⟩ : (s : Shape) × (s.Idx → EReal)), ⟨⟨4, ![2097152, 1, 1, 16]⟩, b⟩].map (·.1))
      ⟨4, ![2097152, 1, 2, 16]⟩ 2) :
    Flat (concatenate ⟨4, ![2097152, 1, 2, 16]⟩ 2 [⟨⟨4, ![2097152, 1, 1, 16]⟩, a⟩, ⟨⟨4, ![2097152, 1, 1, 16]⟩, b⟩] h)
      (fun n => if (n / 16) % 2 = 0 then g0 (n / 32 * 16 + n % 16) else g1 (n / 32 * 16 + n % 16)) := by
  intro j
  obtain ⟨q, p, u, k, rfl⟩ : ∃ (q : Fin 2097152) (p : Fin 1) (u : Fin 2) (k : Fin 16), j = ix4 q p u k :=
    ⟨j 0, j 1, j 2, j 3, eq_ix4 j⟩
  have hq := q.isLt; have hp := p.isLt; have hu := u.isLt; have hk := k.isLt
  show _ = if _ then _ else _
  rw [rm4]
  by_cases hu0 : u.val = 0
  · refine (concatenate_pair_apply_left 2 a b h _ rfl (ix4 q p (0 : Fin 1) k) (fun c => ?_)).trans ?_
    · match c with
      | ⟨0, _⟩ => rfl
      | ⟨1, _⟩ => rfl
      | ⟨2, _⟩ => show 0 = u.val; omega
      | ⟨3, _⟩ => rfl
    · rw [if_pos (by omega), ha, rm4]
      congr 1
      omega
  · refine (concatenate_pair_apply_right 2 a b h _ rfl rfl (ix4 q p (0 : Fin 1) k) (fun c hc => ?_) ?_).trans ?_
    · match c with
      | ⟨0, _⟩ => rfl
      | ⟨1, _⟩ => rfl
      | ⟨2, _⟩ => exact absurd rfl hc
      | ⟨3, _⟩ => rfl
    · show 0 + 1 = u.val; omega
    · rw [if_neg (by omega), hb, rm4]
      congr 1
      omega

theorem ref_stage_16 {x : FVec Ideal ⟨4, ![2097152, 1, 2, 16]⟩ .f32} {f : ℕ → EReal} (hx : Flat x f)
    (hs0 : (⟨4, ![2097152, 1, 2, 16]⟩ : Shape).Slices ![0, 0, 0, 0] ⟨4, ![2097152, 1, 1, 16]⟩)
    (hs1 : (⟨4, ![2097152, 1, 2, 16]⟩ : Shape).Slices ![0, 0, 1, 0] ⟨4, ![2097152, 1, 1, 16]⟩)
    (hc : (⟨4, ![2097152, 1, 1, 16]⟩ : Shape).ShapeCasts ⟨3, ![2097152, 1, 16]⟩)
    (hb : (⟨3, ![2097152, 1, 16]⟩ : Shape).BroadcastsInDim ⟨4, ![2097152, 1, 1, 16]⟩ ![0, 1, 3])
    (hcc : Shape.Concatenates [⟨4, ![2097152, 1, 1, 16]⟩, ⟨4, ![2097152, 1, 1, 16]⟩] ⟨4, ![2097152, 1, 2, 16]⟩ 2) :
    Flat (concatenate ⟨4, ![2097152, 1, 2, 16]⟩ 2
      [⟨⟨4, ![2097152, 1, 1, 16]⟩, broadcastInDim ⟨4, ![2097152, 1, 1, 16]⟩ ![0, 1, 3] hb
          (addf (shapeCast ⟨3, ![2097152, 1, 16]⟩ (extractStridedSlice ⟨4, ![2097152, 1, 1, 16]⟩ ![0, 0, 0, 0] x hs0) hc)
            (shapeCast ⟨3, ![2097152, 1, 16]⟩ (extractStridedSlice ⟨4, ![2097152, 1, 1, 16]⟩ ![0, 0, 1, 0] x hs1) hc))⟩,
       ⟨⟨4, ![2097152, 1, 1, 16]⟩, broadcastInDim ⟨4, ![2097152, 1, 1, 16]⟩ ![0, 1, 3] hb
          (subf (shapeCast ⟨3, ![2097152, 1, 16]⟩ (extractStridedSlice ⟨4, ![2097152, 1, 1, 16]⟩ ![0, 0, 0, 0] x hs0) hc)
            (shapeCast ⟨3, ![2097152, 1, 16]⟩ (extractStridedSlice ⟨4, ![2097152, 1, 1, 16]⟩ ![0, 0, 1, 0] x hs1) hc))⟩] hcc)
      (stageF 16 f) := by
  have h0 := (slice_1_16 0 (by omega) hx hs0).reshape hc
  have h1 := (slice_1_16 1 (by omega) hx hs1).reshape hc
  refine (concat_1_16 (bcast_1_16 (h0.add h1) hb) (bcast_1_16 (h0.sub h1) hb) hcc).congr (fun n _ => ?_)
  unfold stageF
  by_cases hn : (n / 16) % 2 = 0
  · rw [if_pos hn, if_pos hn]
    show f _ + f _ = f _ + f _
    congr 2 <;> omega
  · rw [if_neg hn, if_neg hn]
    show f _ - f _ = f _ - f _
    congr 2 <;> omega

/-! ## The transpositions of heads and lanes, the trailing unit axis, the scale -/

/-- Heads and lanes exchanged: the array `[16384, 128, 32]` whose entry `(T, d, h)` is entry `(T, h, d)` of `x`. -/
theorem transpose_in {x : FVec Ideal ⟨3, ![16384, 32, 128]⟩ .f32} {f : ℕ → EReal} (hx : Flat x f)
    (h : (⟨3, ![16384, 32, 128]⟩ : Shape).Transposes [0, 2, 1] ⟨3, ![16384, 128, 32]⟩) :
    Flat (transpose ⟨3, ![16384, 128, 32]⟩ [0, 2, 1] x h) (fun n => f (lanePos n)) := by
  intro j
  obtain ⟨T, d, k, rfl⟩ : ∃ (T : Fin 16384) (d : Fin 128) (k : Fin 32), j = ix3 T d k := ⟨j 0, j 1, j 2, eq_ix3 j⟩
  have hT := T.isLt; have hd := d.isLt; have hk := k.isLt
  refine (transpose_apply _ x h _ (ix3 T k d) (fun b => ?_)).trans ?_
  · match b with
    | ⟨0, _⟩ => rfl
    | ⟨1, _⟩ => rfl
    | ⟨2, _⟩ => rfl
  · rw [hx]
    show f _ = f _
    rw [rm3, rm3]
    congr 1
    unfold lanePos
    omega

/-- And back: the array `[16384, 32, 128]` whose entry `(T, h, d)` is entry `(T, d, h)` of `y`. -/
theorem transpose_out {y : FVec Ideal ⟨3, ![16384, 128, 32]⟩ .f32} {g : ℕ → EReal} (hy : Flat y g)
    (h : (⟨3, ![16384, 128, 32]⟩ : Shape).Transposes [0, 2, 1] ⟨3, ![16384, 32, 128]⟩) :
    Flat (transpose ⟨3, ![16384, 32, 128]⟩ [0, 2, 1] y h) (fun o => g (rowPos o)) := by
  intro j
  obtain ⟨T, k, d, rfl⟩ : ∃ (T : Fin 16384) (k : Fin 32) (d : Fin 128), j = ix3 T k d := ⟨j 0, j 1, j 2, eq_ix3 j⟩
  have hT := T.isLt; have hd := d.isLt; have hk := k.isLt
  refine (transpose_apply _ y h _ (ix3 T d k) (fun b => ?_)).trans ?_
  · match b with
    | ⟨0, _⟩ => rfl
    | ⟨1, _⟩ => rfl
    | ⟨2, _⟩ => rfl
  · rw [hy]
    show g _ = g _
    rw [rm3, rm3]
    congr 1
    unfold rowPos
    omega

/-- A trailing unit axis keeps every position. -/
theorem bcast_unit {y : FVec Ideal ⟨2, ![2097152, 32]⟩ .f32} {g : ℕ → EReal} (hy : Flat y g)
    (h : (⟨2, ![2097152, 32]⟩ : Shape).BroadcastsInDim ⟨3, ![2097152, 32, 1]⟩ ![0, 1]) :
    Flat (broadcastInDim ⟨3, ![2097152, 32, 1]⟩ ![0, 1] h y) g := by
  intro j
  obtain ⟨b, q, u, rfl⟩ : ∃ (b : Fin 2097152) (q : Fin 32) (u : Fin 1), j = ix3 b q u := ⟨j 0, j 1, j 2, eq_ix3 j⟩
  have hb := b.isLt; have hq := q.isLt; have hu := u.isLt
  refine (broadcastInDim_apply _ h y _ (ix2 b q) (fun a => ?_)).trans ?_
  · match a with
    | ⟨0, _⟩ => rfl
    | ⟨1, _⟩ => rfl
  · rw [hy, rm2, rm3]
    congr 1
    omega

/-- Every entry times the scale: the scalar constant spread over the array. -/
theorem mul_scale {y : FVec Ideal ⟨2, ![2097152, 32]⟩ .f32} {g : ℕ → EReal} (hy : Flat y g)
    (h : (⟨0, ![]⟩ : Shape).BroadcastsInDim ⟨2, ![2097152, 32]⟩ ![]) :
    Flat (mulf y (broadcastInDim ⟨2, ![2097152, 32]⟩ ![] h (constant (F := Ideal) ⟨0, ![]⟩ .f32 0x3E3504F3#32)))
      (fun n => g n * scale) :=
  hy.mul (Flat.const scale fun i => (broadcastInDim_scalar_apply h _ i).trans rfl)

end Cert.Butterfly

end
-- ==== Proof.RefRun.lean ====
/-
  The transposed program's run, cut into its seven stretches.

  @main is 66 host operations in a line: five that exchange heads and lanes and view each row of 32
  entries as pairs, five butterfly stages of eleven operations each (two cuts, two reshapes, the sum,
  the difference, two unit axes, the concatenation, two reshapes), and six that scale and exchange
  back. Each stretch reads ONE array the stretch before it wrote and writes one array the next one
  reads, so what it leaves is a function `T0 … T6` of that one array, whatever else memory holds
  (`stretch0 … stretch6`), and the line's result is their composition (`after_ops`). No stretch writes
  the argument (`keep0 … keep6`). The run of the line itself (`run`) is the library's run of a straight
  line of host operations.
-/
import proofs.«125641_j46153718563373_1_alg».proof.Proof.Gen.ReferenceIdeal
import Idealize.ShloMosaic.Lib.StableHlo.Run
import Idealize.ShloMosaic.Lib.Pipeline.Frame

noncomputable section

namespace Cert.Butterfly.RefRun

open Cert.ReferenceIdeal Cert.ReferenceIdeal.Gen Idealize.ShloMosaic Idealize.ShloMosaic.TcCoe Idealize.SL.Sem Idealize.ShloMosaic.StableHlo

variable {F : FTy → Type} [FloatOps F]

/-! ## The seven stretches as functions of the one array each reads -/

/-- Heads and lanes exchanged, then each row of 32 entries read as 16 pairs of single entries. -/
def T0 (x : FVec F S4x4096x4096 .f32) : FVec F S2097152x16x2x1 .f32 :=
  shapeCast _ (broadcastInDim S2097152x32x1 ![0, 1] bcast_S2097152x32_S2097152x32x1_0_1 (shapeCast _ (transpose S16384x128x32 [0, 2, 1] (shapeCast _ x shapeCasts_S4x4096x4096_S16384x32x128) transposes_S16384x32x128_S16384x128x32_0_2_1) shapeCasts_S16384x128x32_S2097152x32)) shapeCasts_S2097152x32x1_S2097152x16x2x1

/-- The stage at stride 1, its result read as 8 pairs of runs of 2. -/
def T1 (y : FVec F S2097152x16x2x1 .f32) : FVec F S2097152x8x2x2 .f32 :=
  shapeCast _ (shapeCast _ (concatenate S2097152x16x2x1 2 [⟨S2097152x16x1x1, (broadcastInDim S2097152x16x1x1 ![0, 1, 3] bcast_S2097152x16x1_S2097152x16x1x1_0_1_3 (addf (shapeCast _ (extractStridedSlice S2097152x16x1x1 ![0, 0, 0, 0] y slices_S2097152x16x2x1_S2097152x16x1x1_0_0_0_0) shapeCasts_S2097152x16x1x1_S2097152x16x1) (shapeCast _ (extractStridedSlice S2097152x16x1x1 ![0, 0, 1, 0] y slices_S2097152x16x2x1_S2097152x16x1x1_0_0_1_0) shapeCasts_S2097152x16x1x1_S2097152x16x1)))⟩, ⟨S2097152x16x1x1, (broadcastInDim S2097152x16x1x1 ![0, 1, 3] bcast_S2097152x16x1_S2097152x16x1x1_0_1_3 (subf (shapeCast _ (extractStridedSlice S2097152x16x1x1 ![0, 0, 0, 0] y slices_S2097152x16x2x1_S2097152x16x1x1_0_0_0_0) shapeCasts_S2097152x16x1x1_S2097152x16x1) (shapeCast _ (extractStridedSlice S2097152x16x1x1 ![0, 0, 1, 0] y slices_S2097152x16x2x1_S2097152x16x1x1_0_0_1_0) shapeCasts_S2097152x16x1x1_S2097152x16x1)))⟩] concatenates_S2097152x16x1x1_S2097152x16x1x1_S2097152x16x2x1_d2) shapeCasts_S2097152x16x2x1_S2097152x16x2) shapeCasts_S2097152x16x2_S2097152x8x2x2

/-- The stage at stride 2, its result read as 4 pairs of runs of 4. -/
def T2 (y : FVec F S2097152x8x2x2 .f32) : FVec F S2097152x4x2x4 .f32 :=
  shapeCast _ (shapeCast _ (concatenate S2097152x8x2x2 2 [⟨S2097152x8x1x2, (broadcastInDim S2097152x8x1x2 ![0, 1, 3] bcast_S2097152x8x2_S2097152x8x1x2_0_1_3 (addf (shapeCast _ (extractStridedSlice S2097152x8x1x2 ![0, 0, 0, 0] y slices_S2097152x8x2x2_S2097152x8x1x2_0_0_0_0) shapeCasts_S2097152x8x1x2_S2097152x8x2) (shapeCast _ (extractStridedSlice S2097152x8x1x2 ![0, 0, 1, 0] y slices_S2097152x8x2x2_S2097152x8x1x2_0_0_1_0) shapeCasts_S2097152x8x1x2_S2097152x8x2)))⟩, ⟨S2097152x8x1x2, (broadcastInDim S2097152x8x1x2 ![0, 1, 3] bcast_S2097152x8x2_S2097152x8x1x2_0_1_3 (subf (shapeCast _ (extractStridedSlice S2097152x8x1x2 ![0, 0, 0, 0] y slices_S2097152x8x2x2_S2097152x8x1x2_0_0_0_0) shapeCasts_S2097152x8x1x2_S2097152x8x2) (shapeCast _ (extractStridedSlice S2097152x8x1x2 ![0, 0, 1, 0] y slices_S2097152x8x2x2_S2097152x8x1x2_0_0_1_0) shapeCasts_S2097152x8x1x2_S2097152x8x2)))⟩] concatenates_S2097152x8x1x2_S2097152x8x1x2_S2097152x8x2x2_d2) shapeCasts_S2097152x8x2x2_S2097152x8x4) shapeCasts_S2097152x8x4_S2097152x4x2x4

/-- The stage at stride 4, its result read as 2 pairs of runs of 8. -/
def T3 (y : FVec F S2097152x4x2x4 .f32) : FVec F S2097152x2x2x8 .f32 :=
  shapeCast _ (shapeCast _ (concatenate S2097152x4x2x4 2 [⟨S2097152x4x1x4, (broadcastInDim S2097152x4x1x4 ![0, 1, 3] bcast_S2097152x4x4_S2097152x4x1x4_0_1_3 (addf (shapeCast _ (extractStridedSlice S2097152x4x1x4 ![0, 0, 0, 0] y slices_S2097152x4x2x4_S2097152x4x1x4_0_0_0_0) shapeCasts_S2097152x4x1x4_S2097152x4x4) (shapeCast _ (extractStridedSlice S2097152x4x1x4 ![0, 0, 1, 0] y slices_S2097152x4x2x4_S2097152x4x1x4_0_0_1_0) shapeCasts_S2097152x4x1x4_S2097152x4x4)))⟩, ⟨S2097152x4x1x4, (broadcastInDim S2097152x4x1x4 ![0, 1, 3] bcast_S2097152x4x4_S2097152x4x1x4_0_1_3 (subf (shapeCast _ (extractStridedSlice S2097152x4x1x4 ![0, 0, 0, 0] y slices_S2097152x4x2x4_S2097152x4x1x4_0_0_0_0) shapeCasts_S2097152x4x1x4_S2097152x4x4) (shapeCast _ (extractStridedSlice S2097152x4x1x4 ![0, 0, 1, 0] y slices_S2097152x4x2x4_S2097152x4x1x4_0_0_1_0) shapeCasts_S2097152x4x1x4_S2097152x4x4)))⟩] concatenates_S2097152x4x1x4_S2097152x4x1x4_S2097152x4x2x4_d2) shapeCasts_S2097152x4x2x4_S2097152x4x8) shapeCasts_S2097152x4x8_S2097152x2x2x8

/-- The stage at stride 8, its result read as one pair of runs of 16. -/
def T4 (y : FVec F S2097152x2x2x8 .f32) : FVec F S2097152x1x2x16 .f32 :=
  shapeCast _ (shapeCast _ (concatenate S2097152x2x2x8 2 [⟨S2097152x2x1x8, (broadcastInDim S2097152x2x1x8 ![0, 1, 3] bcast_S2097152x2x8_S2097152x2x1x8_0_1_3 (addf (shapeCast _ (extractStridedSlice S2097152x2x1x8 ![0, 0, 0, 0] y slices_S2097152x2x2x8_S2097152x2x1x8_0_0_0_0) shapeCasts_S2097152x2x1x8_S2097152x2x8) (shapeCast _ (extractStridedSlice S2097152x2x1x8 ![0, 0, 1, 0] y slices_S2097152x2x2x8_S2097152x2x1x8_0_0_1_0) shapeCasts_S2097152x2x1x8_S2097152x2x8)))⟩, ⟨S2097152x2x1x8, (broadcastInDim S2097152x2x1x8 ![0, 1, 3] bcast_S2097152x2x8_S2097152x2x1x8_0_1_3 (subf (shapeCast _ (extractStridedSlice S2097152x2x1x8 ![0, 0, 0, 0] y slices_S2097152x2x2x8_S2097152x2x1x8_0_0_0_0) shapeCasts_S2097152x2x1x8_S2097152x2x8) (shapeCast _ (extractStridedSlice S2097152x2x1x8 ![0, 0, 1, 0] y slices_S2097152x2x2x8_S2097152x2x1x8_0_0_1_0) shapeCasts_S2097152x2x1x8_S2097152x2x8)))⟩] concatenates_S2097152x2x1x8_S2097152x2x1x8_S2097152x2x2x8_d2) shapeCasts_S2097152x2x2x8_S2097152x2x16) shapeCasts_S2097152x2x16_S2097152x1x2x16

/-- The stage at stride 16, its result read as rows of 32. -/
def T5 (y : FVec F S2097152x1x2x16 .f32) : FVec F S2097152x32 .f32 :=
  shapeCast _ (shapeCast _ (concatenate S2097152x1x2x16 2 [⟨S2097152x1x1x16, (broadcastInDim S2097152x1x1x16 ![0, 1, 3] bcast_S2097152x1x16_S2097152x1x1x16_0_1_3 (addf (shapeCast _ (extractStridedSlice S2097152x1x1x16 ![0, 0, 0, 0] y slices_S2097152x1x2x16_S2097152x1x1x16_0_0_0_0) shapeCasts_S2097152x1x1x16_S2097152x1x16) (shapeCast _ (extractStridedSlice S2097152x1x1x16 ![0, 0, 1, 0] y slices_S2097152x1x2x16_S2097152x1x1x16_0_0_1_0) shapeCasts_S2097152x1x1x16_S2097152x1x16)))⟩, ⟨S2097152x1x1x16, (broadcastInDim S2097152x1x1x16 ![0, 1, 3] bcast_S2097152x1x16_S2097152x1x1x16_0_1_3 (subf (shapeCast _ (extractStridedSlice S2097152x1x1x16 ![0, 0, 0, 0] y slices_S2097152x1x2x16_S2097152x1x1x16_0_0_0_0) shapeCasts_S2097152x1x1x16_S2097152x1x16) (shapeCast _ (extractStridedSlice S2097152x1x1x16 ![0, 0, 1, 0] y slices_S2097152x1x2x16_S2097152x1x1x16_0_0_1_0) shapeCasts_S2097152x1x1x16_S2097152x1x16)))⟩] concatenates_S2097152x1x1x16_S2097152x1x1x16_S2097152x1x2x16_d2) shapeCasts_S2097152x1x2x16_S2097152x1x32) shapeCasts_S2097152x1x32_S2097152x32

/-- The scale, then heads and lanes exchanged back. -/
def T6 (z : FVec F S2097152x32 .f32) : FVec F S4x4096x4096 .f32 :=
  shapeCast _ (transpose S16384x32x128 [0, 2, 1] (shapeCast _ (mulf z (broadcastInDim S2097152x32 ![] bcast_S_S2097152x32 (constant S_ .f32 0x3E3504F3#32))) shapeCasts_S2097152x32_S16384x128x32) transposes_S16384x128x32_S16384x32x128_0_2_1) shapeCasts_S16384x32x128_S4x4096x4096

/-! ## The operations, stretch by stretch -/

/-- Operations 1 to 5 of @main. -/
abbrev ops0 : List (HloOp τ sig (Elt F)) :=
  [ reshape main_arg0 main_v0 rfl shapeCasts_S4x4096x4096_S16384x32x128,
    unary main_v0 main_v1 ((transpose S16384x128x32 [0, 2, 1] · transposes_S16384x32x128_S16384x128x32_0_2_1) : (⟨S16384x32x128, .f32⟩ : BufTy).Contents (Elt F) → (⟨S16384x128x32, .f32⟩ : BufTy).Contents (Elt F)),
    reshape main_v1 main_v2 rfl shapeCasts_S16384x128x32_S2097152x32,
    unary main_v2 main_v3 (broadcastInDim S2097152x32x1 ![0, 1] bcast_S2097152x32_S2097152x32x1_0_1 : (⟨S2097152x32, .f32⟩ : BufTy).Contents (Elt F) → (⟨S2097152x32x1, .f32⟩ : BufTy).Contents (Elt F)),
    reshape main_v3 main_v4 rfl shapeCasts_S2097152x32x1_S2097152x16x2x1 ]

/-- Operations 6 to 16. -/
abbrev ops1 : List (HloOp τ sig (Elt F)) :=
  [ unary main_v4 main_v5 ((extractStridedSlice S2097152x16x1x1 ![0, 0, 0, 0] · slices_S2097152x16x2x1_S2097152x16x1x1_0_0_0_0) : (⟨S2097152x16x2x1, .f32⟩ : BufTy).Contents (Elt F) → (⟨S2097152x16x1x1, .f32⟩ : BufTy).Contents (Elt F)),
    reshape main_v5 main_v6 rfl shapeCasts_S2097152x16x1x1_S2097152x16x1,
    unary main_v4 main_v7 ((extractStridedSlice S2097152x16x1x1 ![0, 0, 1, 0] · slices_S2097152x16x2x1_S2097152x16x1x1_0_0_1_0) : (⟨S2097152x16x2x1, .f32⟩ : BufTy).Contents (Elt F) → (⟨S2097152x16x1x1, .f32⟩ : BufTy).Contents (Elt F)),
    reshape main_v7 main_v8 rfl shapeCasts_S2097152x16x1x1_S2097152x16x1,
    binary main_v6 main_v8 main_v9 (addf : (⟨S2097152x16x1, .f32⟩ : BufTy).Contents (Elt F) → (⟨S2097152x16x1, .f32⟩ : BufTy).Contents (Elt F) → (⟨S2097152x16x1, .f32⟩ : BufTy).Contents (Elt F)),
    binary main_v6 main_v8 main_v10 (subf : (⟨S2097152x16x1, .f32⟩ : BufTy).Contents (Elt F) → (⟨S2097152x16x1, .f32⟩ : BufTy).Contents (Elt F) → (⟨S2097152x16x1, .f32⟩ : BufTy).Contents (Elt F)),
    unary main_v9 main_v11 (broadcastInDim S2097152x16x1x1 ![0, 1, 3] bcast_S2097152x16x1_S2097152x16x1x1_0_1_3 : (⟨S2097152x16x1, .f32⟩ : BufTy).Contents (Elt F) → (⟨S2097152x16x1x1, .f32⟩ : BufTy).Contents (Elt F)),
    unary main_v10 main_v12 (broadcastInDim S2097152x16x1x1 ![0, 1, 3] bcast_S2097152x16x1_S2097152x16x1x1_0_1_3 : (⟨S2097152x16x1, .f32⟩ : BufTy).Contents (Elt F) → (⟨S2097152x16x1x1, .f32⟩ : BufTy).Contents (Elt F)),
    binary main_v11 main_v12 main_v13 ((fun a b => concatenate S2097152x16x2x1 2 [⟨S2097152x16x1x1, a⟩, ⟨S2097152x16x1x1, b⟩] concatenates_S2097152x16x1x1_S2097152x16x1x1_S2097152x16x2x1_d2) : (⟨S2097152x16x1x1, .f32⟩ : BufTy).Contents (Elt F) → (⟨S2097152x16x1x1, .f32⟩ : BufTy).Contents (Elt F) → (⟨S2097152x16x2x1, .f32⟩ : BufTy).Contents (Elt F)),
    reshape main_v13 main_v14 rfl shapeCasts_S2097152x16x2x1_S2097152x16x2,
    reshape main_v14 main_v15 rfl shapeCasts_S2097152x16x2_S2097152x8x2x2 ]

/-- Operations 17 to 27. -/
abbrev ops2 : List (HloOp τ sig (Elt F)) :=
  [ unary main_v15 main_v16 ((extractStridedSlice S2097152x8x1x2 ![0, 0, 0, 0] · slices_S2097152x8x2x2_S2097152x8x1x2_0_0_0_0) : (⟨S2097152x8x2x2, .f32⟩ : BufTy).Contents (Elt F) → (⟨S2097152x8x1x2, .f32⟩ : BufTy).Contents (Elt F)),
    reshape main_v16 main_v17 rfl shapeCasts_S2097152x8x1x2_S2097152x8x2,
    unary main_v15 main_v18 ((extractStridedSlice S2097152x8x1x2 ![0, 0, 1, 0] · slices_S2097152x8x2x2_S2097152x8x1x2_0_0_1_0) : (⟨S2097152x8x2x2, .f32⟩ : BufTy).Contents (Elt F) → (⟨S2097152x8x1x2, .f32⟩ : BufTy).Contents (Elt F)),
    reshape main_v18 main_v19 rfl shapeCasts_S2097152x8x1x2_S2097152x8x2,
    binary main_v17 main_v19 main_v20 (addf : (⟨S2097152x8x2, .f32⟩ : BufTy).Contents (Elt F) → (⟨S2097152x8x2, .f32⟩ : BufTy).Contents (Elt F) → (⟨S2097152x8x2, .f32⟩ : BufTy).Contents (Elt F)),
    binary main_v17 main_v19 main_v21 (subf : (⟨S2097152x8x2, .f32⟩ : BufTy).Contents (Elt F) → (⟨S2097152x8x2, .f32⟩ : BufTy).Contents (Elt F) → (⟨S2097152x8x2, .f32⟩ : BufTy).Contents (Elt F)),
    unary main_v20 main_v22 (broadcastInDim S2097152x8x1x2 ![0, 1, 3] bcast_S2097152x8x2_S2097152x8x1x2_0_1_3 : (⟨S2097152x8x2, .f32⟩ : BufTy).Contents (Elt F) → (⟨S2097152x8x1x2, .f32⟩ : BufTy).Contents (Elt F)),
    unary main_v21 main_v23 (broadcastInDim S2097152x8x1x2 ![0, 1, 3] bcast_S2097152x8x2_S2097152x8x1x2_0_1_3 : (⟨S2097152x8x2, .f32⟩ : BufTy).Contents (Elt F) → (⟨S2097152x8x1x2, .f32⟩ : BufTy).Contents (Elt F)),
    binary main_v22 main_v23 main_v24 ((fun a b => concatenate S2097152x8x2x2 2 [⟨S2097152x8x1x2, a⟩, ⟨S2097152x8x1x2, b⟩] concatenates_S2097152x8x1x2_S2097152x8x1x2_S2097152x8x2x2_d2) : (⟨S2097152x8x1x2, .f32⟩ : BufTy).Contents (Elt F) → (⟨S2097152x8x1x2, .f32⟩ : BufTy).Contents (Elt F) → (⟨S2097152x8x2x2, .f32⟩ : BufTy).Contents (Elt F)),
    reshape main_v24 main_v25 rfl shapeCasts_S2097152x8x2x2_S2097152x8x4,
    reshape main_v25 main_v26 rfl shapeCasts_S2097152x8x4_S2097152x4x2x4 ]

/-- Operations 28 to 38. -/
abbrev ops3 : List (HloOp τ sig (Elt F)) :=
  [ unary main_v26 main_v27 ((extractStridedSlice S2097152x4x1x4 ![0, 0, 0, 0] · slices_S2097152x4x2x4_S2097152x4x1x4_0_0_0_0) : (⟨S2097152x4x2x4, .f32⟩ : BufTy).Contents (Elt F) → (⟨S2097152x4x1x4, .f32⟩ : BufTy).Contents (Elt F)),
    reshape main_v27 main_v28 rfl shapeCasts_S2097152x4x1x4_S2097152x4x4,
    unary main_v26 main_v29 ((extractStridedSlice S2097152x4x1x4 ![0, 0, 1, 0] · slices_S2097152x4x2x4_S2097152x4x1x4_0_0_1_0) : (⟨S2097152x4x2x4, .f32⟩ : BufTy).Contents (Elt F) → (⟨S2097152x4x1x4, .f32⟩ : BufTy).Contents (Elt F)),
    reshape main_v29 main_v30 rfl shapeCasts_S2097152x4x1x4_S2097152x4x4,
    binary main_v28 main_v30 main_v31 (addf : (⟨S2097152x4x4, .f32⟩ : BufTy).Contents (Elt F) → (⟨S2097152x4x4, .f32⟩ : BufTy).Contents (Elt F) → (⟨S2097152x4x4, .f32⟩ : BufTy).Contents (Elt F)),
    binary main_v28 main_v30 main_v32 (subf : (⟨S2097152x4x4, .f32⟩ : BufTy).Contents (Elt F) → (⟨S2097152x4x4, .f32⟩ : BufTy).Contents (Elt F) → (⟨S2097152x4x4, .f32⟩ : BufTy).Contents (Elt F)),
    unary main_v31 main_v33 (broadcastInDim S2097152x4x1x4 ![0, 1, 3] bcast_S2097152x4x4_S2097152x4x1x4_0_1_3 : (⟨S2097152x4x4, .f32⟩ : BufTy).Contents (Elt F) → (⟨S2097152x4x1x4, .f32⟩ : BufTy).Contents (Elt F)),
    unary main_v32 main_v34 (broadcastInDim S2097152x4x1x4 ![0, 1, 3] bcast_S2097152x4x4_S2097152x4x1x4_0_1_3 : (⟨S2097152x4x4, .f32⟩ : BufTy).Contents (Elt F) → (⟨S2097152x4x1x4, .f32⟩ : BufTy).Contents (Elt F)),
    binary main_v33 main_v34 main_v35 ((fun a b => concatenate S2097152x4x2x4 2 [⟨S2097152x4x1x4, a⟩, ⟨S2097152x4x1x4, b⟩] concatenates_S2097152x4x1x4_S2097152x4x1x4_S2097152x4x2x4_d2) : (⟨S2097152x4x1x4, .f32⟩ : BufTy).Contents (Elt F) → (⟨S2097152x4x1x4, .f32⟩ : BufTy).Contents (Elt F) → (⟨S2097152x4x2x4, .f32⟩ : BufTy).Contents (Elt F)),
    reshape main_v35 main_v36 rfl shapeCasts_S2097152x4x2x4_S2097152x4x8,
    reshape main_v36 main_v37 rfl shapeCasts_S2097152x4x8_S2097152x2x2x8 ]

/-- Operations 39 to 49. -/
abbrev ops4 : List (HloOp τ sig (Elt F)) :=
  [ unary main_v37 main_v38 ((extractStridedSlice S2097152x2x1x8 ![0, 0, 0, 0] · slices_S2097152x2x2x8_S2097152x2x1x8_0_0_0_0) : (⟨S2097152x2x2x8, .f32⟩ : BufTy).Contents (Elt F) → (⟨S2097152x2x1x8, .f32⟩ : BufTy).Contents (Elt F)),
    reshape main_v38 main_v39 rfl shapeCasts_S2097152x2x1x8_S2097152x2x8,
    unary main_v37 main_v40 ((extractStridedSlice S2097152x2x1x8 ![0, 0, 1, 0] · slices_S2097152x2x2x8_S2097152x2x1x8_0_0_1_0) : (⟨S2097152x2x2x8, .f32⟩ : BufTy).Contents (Elt F) → (⟨S2097152x2x1x8, .f32⟩ : BufTy).Contents (Elt F)),
    reshape main_v40 main_v41 rfl shapeCasts_S2097152x2x1x8_S2097152x2x8,
    binary main_v39 main_v41 main_v42 (addf : (⟨S2097152x2x8, .f32⟩ : BufTy).Contents (Elt F) → (⟨S2097152x2x8, .f32⟩ : BufTy).Contents (Elt F) → (⟨S2097152x2x8, .f32⟩ : BufTy).Contents (Elt F)),
    binary main_v39 main_v41 main_v43 (subf : (⟨S2097152x2x8, .f32⟩ : BufTy).Contents (Elt F) → (⟨S2097152x2x8, .f32⟩ : BufTy).Contents (Elt F) → (⟨S2097152x2x8, .f32⟩ : BufTy).Contents (Elt F)),
    unary main_v42 main_v44 (broadcastInDim S2097152x2x1x8 ![0, 1, 3] bcast_S2097152x2x8_S2097152x2x1x8_0_1_3 : (⟨S2097152x2x8, .f32⟩ : BufTy).Contents (Elt F) → (⟨S2097152x2x1x8, .f32⟩ : BufTy).Contents (Elt F)),
    unary main_v43 main_v45 (broadcastInDim S2097152x2x1x8 ![0, 1, 3] bcast_S2097152x2x8_S2097152x2x1x8_0_1_3 : (⟨S2097152x2x8, .f32⟩ : BufTy).Contents (Elt F) → (⟨S2097152x2x1x8, .f32⟩ : BufTy).Contents (Elt F)),
    binary main_v44 main_v45 main_v46 ((fun a b => concatenate S2097152x2x2x8 2 [⟨S2097152x2x1x8, a⟩, ⟨S2097152x2x1x8, b⟩] concatenates_S2097152x2x1x8_S2097152x2x1x8_S2097152x2x2x8_d2) : (⟨S2097152x2x1x8, .f32⟩ : BufTy).Contents (Elt F) → (⟨S2097152x2x1x8, .f32⟩ : BufTy).Contents (Elt F) → (⟨S2097152x2x2x8, .f32⟩ : BufTy).Contents (Elt F)),
    reshape main_v46 main_v47 rfl shapeCasts_S2097152x2x2x8_S2097152x2x16,
    reshape main_v47 main_v48 rfl shapeCasts_S2097152x2x16_S2097152x1x2x16 ]

/-- Operations 50 to 60. -/
abbrev ops5 : List (HloOp τ sig (Elt F)) :=
  [ unary main_v48 main_v49 ((extractStridedSlice S2097152x1x1x16 ![0, 0, 0, 0] · slices_S2097152x1x2x16_S2097152x1x1x16_0_0_0_0) : (⟨S2097152x1x2x16, .f32⟩ : BufTy).Contents (Elt F) → (⟨S2097152x1x1x16, .f32⟩ : BufTy).Contents (Elt F)),
    reshape main_v49 main_v50 rfl shapeCasts_S2097152x1x1x16_S2097152x1x16,
    unary main_v48 main_v51 ((extractStridedSlice S2097152x1x1x16 ![0, 0, 1, 0] · slices_S2097152x1x2x16_S2097152x1x1x16_0_0_1_0) : (⟨S2097152x1x2x16, .f32⟩ : BufTy).Contents (Elt F) → (⟨S2097152x1x1x16, .f32⟩ : BufTy).Contents (Elt F)),
    reshape main_v51 main_v52 rfl shapeCasts_S2097152x1x1x16_S2097152x1x16,
    binary main_v50 main_v52 main_v53 (addf : (⟨S2097152x1x16, .f32⟩ : BufTy).Contents (Elt F) → (⟨S2097152x1x16, .f32⟩ : BufTy).Contents (Elt F) → (⟨S2097152x1x16, .f32⟩ : BufTy).Contents (Elt F)),
    binary main_v50 main_v52 main_v54 (subf : (⟨S2097152x1x16, .f32⟩ : BufTy).Contents (Elt F) → (⟨S2097152x1x16, .f32⟩ : BufTy).Contents (Elt F) → (⟨S2097152x1x16, .f32⟩ : BufTy).Contents (Elt F)),
    unary main_v53 main_v55 (broadcastInDim S2097152x1x1x16 ![0, 1, 3] bcast_S2097152x1x16_S2097152x1x1x16_0_1_3 : (⟨S2097152x1x16, .f32⟩ : BufTy).Contents (Elt F) → (⟨S2097152x1x1x16, .f32⟩ : BufTy).Contents (Elt F)),
    unary main_v54 main_v56 (broadcastInDim S2097152x1x1x16 ![0, 1, 3] bcast_S2097152x1x16_S2097152x1x1x16_0_1_3 : (⟨S2097152x1x16, .f32⟩ : BufTy).Contents (Elt F) → (⟨S2097152x1x1x16, .f32⟩ : BufTy).Contents (Elt F)),
    binary main_v55 main_v56 main_v57 ((fun a b => concatenate S2097152x1x2x16 2 [⟨S2097152x1x1x16, a⟩, ⟨S2097152x1x1x16, b⟩] concatenates_S2097152x1x1x16_S2097152x1x1x16_S2097152x1x2x16_d2) : (⟨S2097152x1x1x16, .f32⟩ : BufTy).Contents (Elt F) → (⟨S2097152x1x1x16, .f32⟩ : BufTy).Contents (Elt F) → (⟨S2097152x1x2x16, .f32⟩ : BufTy).Contents (Elt F)),
    reshape main_v57 main_v58 rfl shapeCasts_S2097152x1x2x16_S2097152x1x32,
    reshape main_v58 main_v59 rfl shapeCasts_S2097152x1x32_S2097152x32 ]

/-- Operations 61 to 66. -/
abbrev ops6 : List (HloOp τ sig (Elt F)) :=
  [ nullary main_cst (constant S_ .f32 0x3E3504F3#32),
    unary main_cst main_v60 (broadcastInDim S2097152x32 ![] bcast_S_S2097152x32 : (⟨S_, .f32⟩ : BufTy).Contents (Elt F) → (⟨S2097152x32, .f32⟩ : BufTy).Contents (Elt F)),
    binary main_v59 main_v60 main_v61 (mulf : (⟨S2097152x32, .f32⟩ : BufTy).Contents (Elt F) → (⟨S2097152x32, .f32⟩ : BufTy).Contents (Elt F) → (⟨S2097152x32, .f32⟩ : BufTy).Contents (Elt F)),
    reshape main_v61 main_v62 rfl shapeCasts_S2097152x32_S16384x128x32,
    unary main_v62 main_v63 ((transpose S16384x32x128 [0, 2, 1] · transposes_S16384x128x32_S16384x32x128_0_2_1) : (⟨S16384x128x32, .f32⟩ : BufTy).Contents (Elt F) → (⟨S16384x32x128, .f32⟩ : BufTy).Contents (Elt F)),
    reshape main_v63 main_v64 rfl shapeCasts_S16384x32x128_S4x4096x4096 ]

/-- @main's 66 operations, in order. -/
abbrev ops : List (HloOp τ sig (Elt F)) := ops0 ++ (ops1 ++ (ops2 ++ (ops3 ++ (ops4 ++ (ops5 ++ ops6)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., nullary_bufs_sub .., unary_bufs_sub .., binary_bufs_sub .., reshape_bufs_sub .., unary_bufs_sub .., reshape_bufs_sub ..⟩

/-! ## What each stretch leaves, from any memory -/

theorem stretch0 (W : Valuation τ sig (Elt F)) :
    after (ops0 (F := F)) W (Proc.devRef .tc main_v4) = T0 (W (Proc.devRef .tc main_arg0)) := by
  after_results
  rfl

theorem stretch1 (W : Valuation τ sig (Elt F)) :
    after (ops1 (F := F)) W (Proc.devRef .tc main_v15) = T1 (W (Proc.devRef .tc main_v4)) := by
  after_results
  rfl

theorem stretch2 (W : Valuation τ sig (Elt F)) :
    after (ops2 (F := F)) W (Proc.devRef .tc main_v26) = T2 (W (Proc.devRef .tc main_v15)) := by
  after_results
  rfl

theorem stretch3 (W : Valuation τ sig (Elt F)) :
    after (ops3 (F := F)) W (Proc.devRef .tc main_v37) = T3 (W (Proc.devRef .tc main_v26)) := by
  after_results
  rfl

theorem stretch4 (W : Valuation τ sig (Elt F)) :
    after (ops4 (F := F)) W (Proc.devRef .tc main_v48) = T4 (W (Proc.devRef .tc main_v37)) := by
  after_results
  rfl

theorem stretch5 (W : Valuation τ sig (Elt F)) :
    after (ops5 (F := F)) W (Proc.devRef .tc main_v59) = T5 (W (Proc.devRef .tc main_v48)) := by
  after_results
  rfl

theorem stretch6 (W : Valuation τ sig (Elt F)) :
    after (ops6 (F := F)) W (Proc.devRef .tc main_v64) = T6 (W (Proc.devRef .tc main_v59)) := by
  after_results
  rfl

/-- The line's result: the seven stretches composed. -/
theorem after_ops (V0 : Valuation τ sig (Elt F)) :
    after (ops (F := F)) V0 (Proc.devRef .tc main_v64)
      = T6 (T5 (T4 (T3 (T2 (T1 (T0 (V0 (Proc.devRef .tc main_arg0)))))))) := by
  simp only [ops, StableHlo.after_append]
  rw [stretch6, stretch5, stretch4, stretch3, stretch2, stretch1, stretch0]

/-! ## No stretch writes the argument -/

theorem keep0 (W : Valuation τ sig (Elt F)) :
    after (ops0 (F := F)) W (Proc.devRef .tc main_arg0) = W (Proc.devRef .tc main_arg0) := by
  after_results_simp

theorem keep1 (W : Valuation τ sig (Elt F)) :
    after (ops1 (F := F)) W (Proc.devRef .tc main_arg0) = W (Proc.devRef .tc main_arg0) := by
  after_results_simp

theorem keep2 (W : Valuation τ sig (Elt F)) :
    after (ops2 (F := F)) W (Proc.devRef .tc main_arg0) = W (Proc.devRef .tc main_arg0) := by
  after_results_simp

theorem keep3 (W : Valuation τ sig (Elt F)) :
    after (ops3 (F := F)) W (Proc.devRef .tc main_arg0) = W (Proc.devRef .tc main_arg0) := by
  after_results_simp

theorem keep4 (W : Valuation τ sig (Elt F)) :
    after (ops4 (F := F)) W (Proc.devRef .tc main_arg0) = W (Proc.devRef .tc main_arg0) := by
  after_results_simp

theorem keep5 (W : Valuation τ sig (Elt F)) :
    after (ops5 (F := F)) W (Proc.devRef .tc main_arg0) = W (Proc.devRef .tc main_arg0) := by
  after_results_simp

theorem keep6 (W : Valuation τ sig (Elt F)) :
    after (ops6 (F := F)) W (Proc.devRef .tc main_arg0) = W (Proc.devRef .tc main_arg0) := by
  after_results_simp

theorem after_arg (V0 : Valuation τ sig (Elt F)) :
    after (ops (F := F)) V0 (Proc.devRef .tc main_arg0) = V0 (Proc.devRef .tc main_arg0) := by
  simp only [ops, StableHlo.after_append]
  rw [keep6, keep5, keep4, keep3, keep2, keep1, keep0]

/-! ## The run -/

/-- On every device, from any memory with zero counters: every weakly fair execution of @main terminates with the
    result at the seven stretches' composition of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = T6 (T5 (T4 (T3 (T2 (T1 (T0 (launchContents m c (Proc.devRef .tc main_arg0))))))))
      ∧ r.2.mem ((c.tc : Thread nD τ).loc main_arg0) = m ((c.tc : Thread nD τ).loc main_arg0) :=
  (θ_run defs _ _).mono (fun _ h c => ⟨(h c main_v64).trans (after_ops _), (h c main_arg0).trans (after_arg _)⟩)
    (run_seq scopedRefs_eq scopedSems_eq defs main (fun _ => ops) main_eq (fun _ => ops_sub) m ρ)

end Cert.Butterfly.RefRun

end
-- ==== Proof.RefValue.lean ====
/-
  The transposed program's result is the specification.

  With `X` the argument's row-major function: the first stretch leaves `X ∘ lanePos` (heads and lanes
  exchanged), each stage stretch `stageF c` of what the one before left, and the last stretch the
  scale and the exchange back, so the result holds `whtRow (X ∘ lanePos) (rowPos o) * scale` at position
  `o`: the specification, by `refF_eq`.
-/
import proofs.«125641_j46153718563373_1_alg».proof.Proof.RefOps
import proofs.«125641_j46153718563373_1_alg».proof.Proof.RefRun

noncomputable section

namespace Cert.Butterfly

open Idealize.ShloMosaic Idealize.ShloMosaic.TcCoe Idealize.SL.Sem Idealize.ShloMosaic.ValueIdx
open Cert.ReferenceIdeal Cert.ReferenceIdeal.Gen Cert.Butterfly.RefRun
open Idealize.ShloMosaic.StableHlo (launchContents)

theorem flat_T0 {x : FVec Ideal S4x4096x4096 .f32} {f : ℕ → EReal} (hx : Flat (s := S4x4096x4096) x f) :
    Flat (s := S2097152x16x2x1) (T0 x) (fun n => f (lanePos n)) := by
  unfold T0
  exact (bcast_unit ((transpose_in (hx.reshape _) _).reshape _) _).reshape _

theorem flat_T1 {y : FVec Ideal S2097152x16x2x1 .f32} {f : ℕ → EReal} (hy : Flat (s := S2097152x16x2x1) y f) :
    Flat (s := S2097152x8x2x2) (T1 y) (stageF 1 f) := by
  unfold T1
  exact ((ref_stage_1 hy _ _ _ _ _).reshape _).reshape _

theorem flat_T2 {y : FVec Ideal S2097152x8x2x2 .f32} {f : ℕ → EReal} (hy : Flat (s := S2097152x8x2x2) y f) :
    Flat (s := S2097152x4x2x4) (T2 y) (stageF 2 f) := by
  unfold T2
  exact ((ref_stage_2 hy _ _ _ _ _).reshape _).reshape _

theorem flat_T3 {y : FVec Ideal S2097152x4x2x4 .f32} {f : ℕ → EReal} (hy : Flat (s := S2097152x4x2x4) y f) :
    Flat (s := S2097152x2x2x8) (T3 y) (stageF 4 f) := by
  unfold T3
  exact ((ref_stage_4 hy _ _ _ _ _).reshape _).reshape _

theorem flat_T4 {y : FVec Ideal S2097152x2x2x8 .f32} {f : ℕ → EReal} (hy : Flat (s := S2097152x2x2x8) y f) :
    Flat (s := S2097152x1x2x16) (T4 y) (stageF 8 f) := by
  unfold T4
  exact ((ref_stage_8 hy _ _ _ _ _).reshape _).reshape _

theorem flat_T5 {y : FVec Ideal S2097152x1x2x16 .f32} {f : ℕ → EReal} (hy : Flat (s := S2097152x1x2x16) y f) :
    Flat (s := S2097152x32) (T5 y) (stageF 16 f) := by
  unfold T5
  exact ((ref_stage_16 hy _ _ _ _ _).reshape _).reshape _

theorem flat_T6 {z : FVec Ideal S2097152x32 .f32} {g : ℕ → EReal} (hz : Flat (s := S2097152x32) z g) :
    Flat (s := S4x4096x4096) (T6 z) (fun o => g (rowPos o) * scale) := by
  unfold T6
  exact (transpose_out ((mul_scale hz _).reshape _) _).reshape _

/-- The seven stretches composed leave the specification. -/
theorem flat_result (x : FVec Ideal S4x4096x4096 .f32) :
    Flat (s := S4x4096x4096) (T6 (T5 (T4 (T3 (T2 (T1 (T0 x))))))) (specF (flatOf (s := S4x4096x4096) x)) :=
  (flat_T6 (flat_T5 (flat_T4 (flat_T3 (flat_T2 (flat_T1 (flat_T0 (flat_flatOf x)))))))).congr
    (fun o _ => refF_eq _ o)

/-- The transposed program's run: the result array ends at `G` of the argument array, the argument unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64) = G (m ((c.tc : Thread nD τ).loc main_arg0))
      ∧ r.2.mem ((c.tc : Thread nD τ).loc main_arg0) = m ((c.tc : Thread nD τ).loc main_arg0)) := by
  refine (θ_run defs _ _).mono (fun r h c => ⟨(h c).1.trans ?_, (h c).2⟩) (RefRun.run (F := Ideal) m ρ)
  exact (flat_result (launchContents m c (Proc.devRef .tc main_arg0))).eq (flat_G _)

end Cert.Butterfly

end
-- ==== Proof.lean ====
/-
  The certificate's five claims.

  Both programs compute, for every row of the argument read as 16384 rows of 32 heads by 128 lanes and
  every lane, the 32-point Walsh–Hadamard butterfly across the heads (five stages of sums and
  differences, the same operations in the same order on both sides), scaled by the f32 nearest
  `1 / √32`: the array `G` of the argument (Proof/Spec.lean). The kernel program does it in place,
  block of rows by block of rows, the 32 entries of a transform 128 apart (Proof/KerPayload.lean,
  Proof/KerValue.lean); the other program exchanges heads and lanes first and works on 32 consecutive
  entries (Proof/RefOps.lean, Proof/RefRun.lean, Proof/RefValue.lean). No law of arithmetic is needed
  beyond the re-indexing, so the precondition is never opened. The ideal pass rewrote nothing, so the
  idealization claim is the trivial one; the three frames are the runs with the result dropped.
-/
import proofs.«125641_j46153718563373_1_alg».proof.Defs
import proofs.«125641_j46153718563373_1_alg».proof.Proof.Gen.Kernel
import proofs.«125641_j46153718563373_1_alg».proof.Proof.Gen.Kernel.Skeleton
import proofs.«125641_j46153718563373_1_alg».proof.Proof.Gen.Kernel.Launch
import proofs.«125641_j46153718563373_1_alg».proof.Proof.Gen.Kernel.Points
import proofs.«125641_j46153718563373_1_alg».proof.Proof.Gen.Kernel.Frame
import proofs.«125641_j46153718563373_1_alg».proof.Proof.Gen.KernelIdeal
import proofs.«125641_j46153718563373_1_alg».proof.Proof.Gen.KernelIdeal.Skeleton
import proofs.«125641_j46153718563373_1_alg».proof.Proof.Gen.KernelIdeal.Launch
import proofs.«125641_j46153718563373_1_alg».proof.Proof.Gen.KernelIdeal.Points
import proofs.«125641_j46153718563373_1_alg».proof.Proof.Gen.KernelIdeal.Frame
import proofs.«125641_j46153718563373_1_alg».proof.Proof.Gen.ReferenceIdeal
import proofs.«125641_j46153718563373_1_alg».proof.Proof.Gen.Pre_finite_inputs
import proofs.«125641_j46153718563373_1_alg».proof.Proof.KerValue
import proofs.«125641_j46153718563373_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.Butterfly.ref_run m ρ)

/-- Both runs end with the result array at `G` of the argument array, and the argument arrays agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Butterfly.G (m ((c.tc : Thread Cert.KernelIdeal.nD Cert.KernelIdeal.τ).loc Cert.KernelIdeal.main_arg0)),
    Cert.Butterfly.kernel_run m ρ, ?_⟩
  refine (θ_run Cert.ReferenceIdeal.defs _ _).mono (fun _ h c => ⟨(h c).1.trans ?_, (h c).2⟩) (Cert.Butterfly.ref_run m' ρ')
  exact congrArg Cert.Butterfly.G (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
